-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x10 : S_.BroadcastsInDim S32x10 (![] : Fin 0 → Fin S32x10.rank)
  reducesTo_S32x10_S_d0_1 : S32x10.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2048x4096 .f32) (main_arg1 : FVec F S32x10 .f32) (main_arg2 : FVec F S32 .f32) (main_arg3 : FVec F S1x32 .f32) (main_arg4 : FVec F S1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x10 .f32 := Host.absf main_arg1
  let main_cst_0 : FVec F S_ .f32 := constant S_ .f32 0x7F800000#32
  let main_v5 : FVec F S32x10 .f32 := broadcastInDim S32x10 ![] bcast_S_S32x10 main_cst_0
  let main_v6 : IVec S32x10 1 := cmpf .olt main_v4 main_v5
  let main_c_1 : IVec S_ 1 := constantI S_ 1 1#1
  let main_v7 : IVec S_ 1 := (fun x v => Host.reduce IntOp.andi x v reducesTo_S32x10_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Kernel.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S_ : Shape := ⟨0, ![]⟩
abbrev S2048x4224 : Shape := ⟨2, ![2048, 4224]⟩
abbrev S128x4224 : Shape := ⟨2, ![128, 4224]⟩
abbrev S128x4096 : Shape := ⟨2, ![128, 4096]⟩
abbrev S128x256x32 : Shape := ⟨3, ![128, 256, 32]⟩
abbrev S128x256 : Shape := ⟨2, ![128, 256]⟩
abbrev S32x1 : Shape := ⟨2, ![32, 1]⟩
abbrev S128x256x1 : Shape := ⟨3, ![128, 256, 1]⟩
abbrev S1x1x32 : Shape := ⟨3, ![1, 1, 32]⟩
abbrev S2048x4086 : Shape := ⟨2, ![2048, 4086]⟩
abbrev S2048x1 : Shape := ⟨2, ![2048, 1]⟩
abbrev S2048x10 : Shape := ⟨2, ![2048, 10]⟩

abbrev nBuf : Space → Nat
  | .hbm => 13
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S32x10, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S2048x4224, .f32⟩
  | .hbm, ⟨8, _⟩ => ⟨S2048x4096, .f32⟩
  | .hbm, ⟨9, _⟩ => ⟨S2048x4086, .f32⟩
  | .hbm, ⟨10, _⟩ => ⟨S2048x1, .f32⟩
  | .hbm, ⟨11, _⟩ => ⟨S2048x10, .f32⟩
  | .hbm, ⟨12, _⟩ => ⟨S2048x4096, .f32⟩
  | .local _ .vmem, ⟨0, _⟩ => ⟨S128x4224, .f32⟩
  | .local _ .vmem, ⟨1, _⟩ => ⟨S128x4224, .f32⟩
  | .local _ .vmem, ⟨2, _⟩ => ⟨S32x10, .f32⟩
  | .local _ .vmem, ⟨3, _⟩ => ⟨S32, .f32⟩
  | .local _ .vmem, ⟨4, _⟩ => ⟨S1x32, .f32⟩
  | .local _ .vmem, ⟨5, _⟩ => ⟨S1, .f32⟩
  | .local _ .vmem, ⟨6, _⟩ => ⟨S128x4096, .f32⟩
  | .local _ .vmem, ⟨7, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S2048x4096_S2048x4224_000_01280 : S2048x4096.Pads (![0, 0] : Fin 2 → Nat) ![0, 128] ![0, 0] S2048x4224
  h_S_ : 0 < S_.numel
  inb_S32x10_S32x10_0_0 : ∀ a, (![0, 0] : Fin 2 → Nat) a + S32x10.size a ≤ S32x10.size a
  h_S32x10 : 0 < S32x10.numel
  inb_S32_S32_0 : ∀ a, (![0] : Fin 1 → Nat) a + S32.size a ≤ S32.size a
  h_S32 : 0 < S32.numel
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  inpos_S1_p0 : ∀ a, (![0] : Fin 1 → Nat) a < S1.size a
  shapeCasts_S1x32_S32 : S1x32.ShapeCasts S32
  inb_S128x4224_S128x256_0_0 : ∀ a, (![0, 0] : Fin 2 → Nat) a + S128x256.size a ≤ S128x4224.size a
  h_S128x256 : 0 < S128x256.numel
  shapeCasts_S128x256_S128x256 : S128x256.ShapeCasts S128x256
  slices_S32x10_o0_0_S32x1 : S32x10.Slices ![0, 0] S32x1
  shapeCasts_S32x1_S32 : S32x1.ShapeCasts S32
  shapeCasts_S128x256_S128x256x1 : S128x256.ShapeCasts S128x256x1
  shapeCasts_S32_S1x1x32 : S32.ShapeCasts S1x1x32
  broadcasts_S128x256x1_S128x256x32 : S128x256x1.Broadcasts S128x256x32
  broadcasts_S1x1x32_S128x256x32 : S1x1x32.Broadcasts S128x256x32
  inb_S128x4224_S128x256_0_1 : ∀ a, (![0, 1] : Fin 2 → Nat) a + S128x256.size a ≤ S128x4224.size a
  slices_S32x10_o0_1_S32x1 : S32x10.Slices ![0, 1] S32x1
  inb_S128x4224_S128x256_0_2 : ∀ a, (![0, 2] : Fin 2 → Nat) a + S128x256.size a ≤ S128x4224.size a
  slices_S32x10_o0_2_S32x1 : S32x10.Slices ![0, 2] S32x1
  inb_S128x4224_S128x256_0_3 : ∀ a, (![0, 3] : Fin 2 → Nat) a + S128x256.size a ≤ S128x4224.size a
  slices_S32x10_o0_3_S32x1 : S32x10.Slices ![0, 3] S32x1
  inb_S128x4224_S128x256_0_4 : ∀ a, (![0, 4] : Fin 2 → Nat) a + S128x256.size a ≤ S128x4224.size a
  slices_S32x10_o0_4_S32x1 : S32x10.Slices ![0, 4] S32x1
  inb_S128x4224_S128x256_0_5 : ∀ a, (![0, 5] : Fin 2 → Nat) a + S128x256.size a ≤ S128x4224.size a
  slices_S32x10_o0_5_S32x1 : S32x10.Slices ![0, 5] S32x1
  inb_S128x4224_S128x256_0_6 : ∀ a, (![0, 6] : Fin 2 → Nat) a + S128x256.size a ≤ S128x4224.size a
  slices_S32x10_o0_6_S32x1 : S32x10.Slices ![0, 6] S32x1
  inb_S128x4224_S128x256_0_7 : ∀ a, (![0, 7] : Fin 2 → Nat) a + S128x256.size a ≤ S128x4224.size a
  slices_S32x10_o0_7_S32x1 : S32x10.Slices ![0, 7] S32x1
  inb_S128x4224_S128x256_0_8 : ∀ a, (![0, 8] : Fin 2 → Nat) a + S128x256.size a ≤ S128x4224.size a
  slices_S32x10_o0_8_S32x1 : S32x10.Slices ![0, 8] S32x1
  inb_S128x4224_S128x256_0_9 : ∀ a, (![0, 9] : Fin 2 → Nat) a + S128x256.size a ≤ S128x4224.size a
  slices_S32x10_o0_9_S32x1 : S32x10.Slices ![0, 9] S32x1
  reduces_S128x256x32_S128x256 : S128x256x32.Reduces [2] S128x256
  inb_S128x4096_S128x256_0_0 : ∀ a, (![0, 0] : Fin 2 → Nat) a + S128x256.size a ≤ S128x4096.size a
  inb_S128x4224_S128x256_0_256 : ∀ a, (![0, 256] : Fin 2 → Nat) a + S128x256.size a ≤ S128x4224.size a
  inb_S128x4224_S128x256_0_257 : ∀ a, (![0, 257] : Fin 2 → Nat) a + S128x256.size a ≤ S128x4224.size a
  inb_S128x4224_S128x256_0_258 : ∀ a, (![0, 258] : Fin 2 → Nat) a + S128x256.size a ≤ S128x4224.size a
  inb_S128x4224_S128x256_0_259 : ∀ a, (![0, 259] : Fin 2 → Nat) a + S128x256.size a ≤ S128x4224.size a
  inb_S128x4224_S128x256_0_260 : ∀ a, (![0, 260] : Fin 2 → Nat) a + S128x256.size a ≤ S128x4224.size a
  inb_S128x4224_S128x256_0_261 : ∀ a, (![0, 261] : Fin 2 → Nat) a + S128x256.size a ≤ S128x4224.size a
  inb_S128x4224_S128x256_0_262 : ∀ a, (![0, 262] : Fin 2 → Nat) a + S128x256.size a ≤ S128x4224.size a
  inb_S128x4224_S128x256_0_263 : ∀ a, (![0, 263] : Fin 2 → Nat) a + S128x256.size a ≤ S128x4224.size a
  inb_S128x4224_S128x256_0_264 : ∀ a, (![0, 264] : Fin 2 → Nat) a + S128x256.size a ≤ S128x4224.size a
  inb_S128x4224_S128x256_0_265 : ∀ a, (![0, 265] : Fin 2 → Nat) a + S128x256.size a ≤ S128x4224.size a
  inb_S128x4096_S128x256_0_256 : ∀ a, (![0, 256] : Fin 2 → Nat) a + S128x256.size a ≤ S128x4096.size a
  inb_S128x4224_S128x256_0_512 : ∀ a, (![0, 512] : Fin 2 → Nat) a + S128x256.size a ≤ S128x4224.size a
  inb_S128x4224_S128x256_0_513 : ∀ a, (![0, 513] : Fin 2 → Nat) a + S128x256.size a ≤ S128x4224.size a
  inb_S128x4224_S128x256_0_514 : ∀ a, (![0, 514] : Fin 2 → Nat) a + S128x256.size a ≤ S128x4224.size a
  inb_S128x4224_S128x256_0_515 : ∀ a, (![0, 515] : Fin 2 → Nat) a + S128x256.size a ≤ S128x4224.size a
  inb_S128x4224_S128x256_0_516 : ∀ a, (![0, 516] : Fin 2 → Nat) a + S128x256.size a ≤ S128x4224.size a
  inb_S128x4224_S128x256_0_517 : ∀ a, (![0, 517] : Fin 2 → Nat) a + S128x256.size a ≤ S128x4224.size a
  inb_S128x4224_S128x256_0_518 : ∀ a, (![0, 518] : Fin 2 → Nat) a + S128x256.size a ≤ S128x4224.size a
  inb_S128x4224_S128x256_0_519 : ∀ a, (![0, 519] : Fin 2 → Nat) a + S128x256.size a ≤ S128x4224.size a
  inb_S128x4224_S128x256_0_520 : ∀ a, (![0, 520] : Fin 2 → Nat) a + S128x256.size a ≤ S128x4224.size a
  inb_S128x4224_S128x256_0_521 : ∀ a, (![0, 521] : Fin 2 → Nat) a + S128x256.size a ≤ S128x4224.size a
  inb_S128x4096_S128x256_0_512 : ∀ a, (![0, 512] : Fin 2 → Nat) a + S128x256.size a ≤ S128x4096.size a
  inb_S128x4224_S128x256_0_768 : ∀ a, (![0, 768] : Fin 2 → Nat) a + S128x256.size a ≤ S128x4224.size a
  inb_S128x4224_S128x256_0_769 : ∀ a, (![0, 769] : Fin 2 → Nat) a + S128x256.size a ≤ S128x4224.size a
  inb_S128x4224_S128x256_0_770 : ∀ a, (![0, 770] : Fin 2 → Nat) a + S128x256.size a ≤ S128x4224.size a
  inb_S128x4224_S128x256_0_771 : ∀ a, (![0, 771] : Fin 2 → Nat) a + S128x256.size a ≤ S128x4224.size a
  inb_S128x4224_S128x256_0_772 : ∀ a, (![0, 772] : Fin 2 → Nat) a + S128x256.size a ≤ S128x4224.size a
  inb_S128x4224_S128x256_0_773 : ∀ a, (![0, 773] : Fin 2 → Nat) a + S128x256.size a ≤ S128x4224.size a
  inb_S128x4224_S128x256_0_774 : ∀ a, (![0, 774] : Fin 2 → Nat) a + S128x256.size a ≤ S128x4224.size a
  inb_S128x4224_S128x256_0_775 : ∀ a, (![0, 775] : Fin 2 → Nat) a + S128x256.size a ≤ S128x4224.size a
  inb_S128x4224_S128x256_0_776 : ∀ a, (![0, 776] : Fin 2 → Nat) a + S128x256.size a ≤ S128x4224.size a
  inb_S128x4224_S128x256_0_777 : ∀ a, (![0, 777] : Fin 2 → Nat) a + S128x256.size a ≤ S128x4224.size a
  inb_S128x4096_S128x256_0_768 : ∀ a, (![0, 768] : Fin 2 → Nat) a + S128x256.size a ≤ S128x4096.size a
  inb_S128x4224_S128x256_0_1024 : ∀ a, (![0, 1024] : Fin 2 → Nat) a + S128x256.size a ≤ S128x4224.size a
  inb_S128x4224_S128x256_0_1025 : ∀ a, (![0, 1025] : Fin 2 → Nat) a + S128x256.size a ≤ S128x4224.size a
  inb_S128x4224_S128x256_0_1026 : ∀ a, (![0, 1026] : Fin 2 → Nat) a + S128x256.size a ≤ S128x4224.size a
  inb_S128x4224_S128x256_0_1027 : ∀ a, (![0, 1027] : Fin 2 → Nat) a + S128x256.size a ≤ S128x4224.size a
  inb_S128x4224_S128x256_0_1028 : ∀ a, (![0, 1028] : Fin 2 → Nat) a + S128x256.size a ≤ S128x4224.size a
  inb_S128x4224_S128x256_0_1029 : ∀ a, (![0, 1029] : Fin 2 → Nat) a + S128x256.size a ≤ S128x4224.size a
  inb_S128x4224_S128x256_0_1030 : ∀ a, (![0, 1030] : Fin 2 → Nat) a + S128x256.size a ≤ S128x4224.size a
  inb_S128x4224_S128x256_0_1031 : ∀ a, (![0, 1031] : Fin 2 → Nat) a + S128x256.size a ≤ S128x4224.size a
  inb_S128x4224_S128x256_0_1032 : ∀ a, (![0, 1032] : Fin 2 → Nat) a + S128x256.size a ≤ S128x4224.size a
  inb_S128x4224_S128x256_0_1033 : ∀ a, (![0, 1033] : Fin 2 → Nat) a + S128x256.size a ≤ S128x4224.size a
  inb_S128x4096_S128x256_0_1024 : ∀ a, (![0, 1024] : Fin 2 → Nat) a + S128x256.size a ≤ S128x4096.size a
  inb_S128x4224_S128x256_0_1280 : ∀ a, (![0, 1280] : Fin 2 → Nat) a + S128x256.size a ≤ S128x4224.size a
  inb_S128x4224_S128x256_0_1281 : ∀ a, (![0, 1281] : Fin 2 → Nat) a + S128x256.size a ≤ S128x4224.size a
  inb_S128x4224_S128x256_0_1282 : ∀ a, (![0, 1282] : Fin 2 → Nat) a + S128x256.size a ≤ S128x4224.size a
  inb_S128x4224_S128x256_0_1283 : ∀ a, (![0, 1283] : Fin 2 → Nat) a + S128x256.size a ≤ S128x4224.size a
  inb_S128x4224_S128x256_0_1284 : ∀ a, (![0, 1284] : Fin 2 → Nat) a + S128x256.size a ≤ S128x4224.size a
  inb_S128x4224_S128x256_0_1285 : ∀ a, (![0, 1285] : Fin 2 → Nat) a + S128x256.size a ≤ S128x4224.size a
  inb_S128x4224_S128x256_0_1286 : ∀ a, (![0, 1286] : Fin 2 → Nat) a + S128x256.size a ≤ S128x4224.size a
  inb_S128x4224_S128x256_0_1287 : ∀ a, (![0, 1287] : Fin 2 → Nat) a + S128x256.size a ≤ S128x4224.size a
  inb_S128x4224_S128x256_0_1288 : ∀ a, (![0, 1288] : Fin 2 → Nat) a + S128x256.size a ≤ S128x4224.size a
  inb_S128x4224_S128x256_0_1289 : ∀ a, (![0, 1289] : Fin 2 → Nat) a + S128x256.size a ≤ S128x4224.size a
  inb_S128x4096_S128x256_0_1280 : ∀ a, (![0, 1280] : Fin 2 → Nat) a + S128x256.size a ≤ S128x4096.size a
  inb_S128x4224_S128x256_0_1536 : ∀ a, (![0, 1536] : Fin 2 → Nat) a + S128x256.size a ≤ S128x4224.size a
  inb_S128x4224_S128x256_0_1537 : ∀ a, (![0, 1537] : Fin 2 → Nat) a + S128x256.size a ≤ S128x4224.size a
  inb_S128x4224_S128x256_0_1538 : ∀ a, (![0, 1538] : Fin 2 → Nat) a + S128x256.size a ≤ S128x4224.size a
  inb_S128x4224_S128x256_0_1539 : ∀ a, (![0, 1539] : Fin 2 → Nat) a + S128x256.size a ≤ S128x4224.size a
  inb_S128x4224_S128x256_0_1540 : ∀ a, (![0, 1540] : Fin 2 → Nat) a + S128x256.size a ≤ S128x4224.size a
  inb_S128x4224_S128x256_0_1541 : ∀ a, (![0, 1541] : Fin 2 → Nat) a + S128x256.size a ≤ S128x4224.size a
  inb_S128x4224_S128x256_0_1542 : ∀ a, (![0, 1542] : Fin 2 → Nat) a + S128x256.size a ≤ S128x4224.size a
  inb_S128x4224_S128x256_0_1543 : ∀ a, (![0, 1543] : Fin 2 → Nat) a + S128x256.size a ≤ S128x4224.size a
  inb_S128x4224_S128x256_0_1544 : ∀ a, (![0, 1544] : Fin 2 → Nat) a + S128x256.size a ≤ S128x4224.size a
  inb_S128x4224_S128x256_0_1545 : ∀ a, (![0, 1545] : Fin 2 → Nat) a + S128x256.size a ≤ S128x4224.size a
  inb_S128x4096_S128x256_0_1536 : ∀ a, (![0, 1536] : Fin 2 → Nat) a + S128x256.size a ≤ S128x4096.size a
  inb_S128x4224_S128x256_0_1792 : ∀ a, (![0, 1792] : Fin 2 → Nat) a + S128x256.size a ≤ S128x4224.size a
  inb_S128x4224_S128x256_0_1793 : ∀ a, (![0, 1793] : Fin 2 → Nat) a + S128x256.size a ≤ S128x4224.size a
  inb_S128x4224_S128x256_0_1794 : ∀ a, (![0, 1794] : Fin 2 → Nat) a + S128x256.size a ≤ S128x4224.size a
  inb_S128x4224_S128x256_0_1795 : ∀ a, (![0, 1795] : Fin 2 → Nat) a + S128x256.size a ≤ S128x4224.size a
  inb_S128x4224_S128x256_0_1796 : ∀ a, (![0, 1796] : Fin 2 → Nat) a + S128x256.size a ≤ S128x4224.size a
  inb_S128x4224_S128x256_0_1797 : ∀ a, (![0, 1797] : Fin 2 → Nat) a + S128x256.size a ≤ S128x4224.size a
  inb_S128x4224_S128x256_0_1798 : ∀ a, (![0, 1798] : Fin 2 → Nat) a + S128x256.size a ≤ S128x4224.size a
  inb_S128x4224_S128x256_0_1799 : ∀ a, (![0, 1799] : Fin 2 → Nat) a + S128x256.size a ≤ S128x4224.size a
  inb_S128x4224_S128x256_0_1800 : ∀ a, (![0, 1800] : Fin 2 → Nat) a + S128x256.size a ≤ S128x4224.size a
  inb_S128x4224_S128x256_0_1801 : ∀ a, (![0, 1801] : Fin 2 → Nat) a + S128x256.size a ≤ S128x4224.size a
  inb_S128x4096_S128x256_0_1792 : ∀ a, (![0, 1792] : Fin 2 → Nat) a + S128x256.size a ≤ S128x4096.size a
  inb_S128x4224_S128x256_0_2048 : ∀ a, (![0, 2048] : Fin 2 → Nat) a + S128x256.size a ≤ S128x4224.size a
  inb_S128x4224_S128x256_0_2049 : ∀ a, (![0, 2049] : Fin 2 → Nat) a + S128x256.size a ≤ S128x4224.size a
  inb_S128x4224_S128x256_0_2050 : ∀ a, (![0, 2050] : Fin 2 → Nat) a + S128x256.size a ≤ S128x4224.size a
  inb_S128x4224_S128x256_0_2051 : ∀ a, (![0, 2051] : Fin 2 → Nat) a + S128x256.size a ≤ S128x4224.size a
  inb_S128x4224_S128x256_0_2052 : ∀ a, (![0, 2052] : Fin 2 → Nat) a + S128x256.size a ≤ S128x4224.size a
  inb_S128x4224_S128x256_0_2053 : ∀ a, (![0, 2053] : Fin 2 → Nat) a + S128x256.size a ≤ S128x4224.size a
  inb_S128x4224_S128x256_0_2054 : ∀ a, (![0, 2054] : Fin 2 → Nat) a + S128x256.size a ≤ S128x4224.size a
  inb_S128x4224_S128x256_0_2055 : ∀ a, (![0, 2055] : Fin 2 → Nat) a + S128x256.size a ≤ S128x4224.size a
  inb_S128x4224_S128x256_0_2056 : ∀ a, (![0, 2056] : Fin 2 → Nat) a + S128x256.size a ≤ S128x4224.size a
  inb_S128x4224_S128x256_0_2057 : ∀ a, (![0, 2057] : Fin 2 → Nat) a + S128x256.size a ≤ S128x4224.size a
  inb_S128x4096_S128x256_0_2048 : ∀ a, (![0, 2048] : Fin 2 → Nat) a + S128x256.size a ≤ S128x4096.size a
  inb_S128x4224_S128x256_0_2304 : ∀ a, (![0, 2304] : Fin 2 → Nat) a + S128x256.size a ≤ S128x4224.size a
  inb_S128x4224_S128x256_0_2305 : ∀ a, (![0, 2305] : Fin 2 → Nat) a + S128x256.size a ≤ S128x4224.size a
  inb_S128x4224_S128x256_0_2306 : ∀ a, (![0, 2306] : Fin 2 → Nat) a + S128x256.size a ≤ S128x4224.size a
  inb_S128x4224_S128x256_0_2307 : ∀ a, (![0, 2307] : Fin 2 → Nat) a + S128x256.size a ≤ S128x4224.size a
  inb_S128x4224_S128x256_0_2308 : ∀ a, (![0, 2308] : Fin 2 → Nat) a + S128x256.size a ≤ S128x4224.size a
  inb_S128x4224_S128x256_0_2309 : ∀ a, (![0, 2309] : Fin 2 → Nat) a + S128x256.size a ≤ S128x4224.size a
  inb_S128x4224_S128x256_0_2310 : ∀ a, (![0, 2310] : Fin 2 → Nat) a + S128x256.size a ≤ S128x4224.size a
  inb_S128x4224_S128x256_0_2311 : ∀ a, (![0, 2311] : Fin 2 → Nat) a + S128x256.size a ≤ S128x4224.size a
  inb_S128x4224_S128x256_0_2312 : ∀ a, (![0, 2312] : Fin 2 → Nat) a + S128x256.size a ≤ S128x4224.size a
  inb_S128x4224_S128x256_0_2313 : ∀ a, (![0, 2313] : Fin 2 → Nat) a + S128x256.size a ≤ S128x4224.size a
  inb_S128x4096_S128x256_0_2304 : ∀ a, (![0, 2304] : Fin 2 → Nat) a + S128x256.size a ≤ S128x4096.size a
  inb_S128x4224_S128x256_0_2560 : ∀ a, (![0, 2560] : Fin 2 → Nat) a + S128x256.size a ≤ S128x4224.size a
  inb_S128x4224_S128x256_0_2561 : ∀ a, (![0, 2561] : Fin 2 → Nat) a + S128x256.size a ≤ S128x4224.size a
  inb_S128x4224_S128x256_0_2562 : ∀ a, (![0, 2562] : Fin 2 → Nat) a + S128x256.size a ≤ S128x4224.size a
  inb_S128x4224_S128x256_0_2563 : ∀ a, (![0, 2563] : Fin 2 → Nat) a + S128x256.size a ≤ S128x4224.size a
  inb_S128x4224_S128x256_0_2564 : ∀ a, (![0, 2564] : Fin 2 → Nat) a + S128x256.size a ≤ S128x4224.size a
  inb_S128x4224_S128x256_0_2565 : ∀ a, (![0, 2565] : Fin 2 → Nat) a + S128x256.size a ≤ S128x4224.size a
  inb_S128x4224_S128x256_0_2566 : ∀ a, (![0, 2566] : Fin 2 → Nat) a + S128x256.size a ≤ S128x4224.size a
  inb_S128x4224_S128x256_0_2567 : ∀ a, (![0, 2567] : Fin 2 → Nat) a + S128x256.size a ≤ S128x4224.size a
  inb_S128x4224_S128x256_0_2568 : ∀ a, (![0, 2568] : Fin 2 → Nat) a + S128x256.size a ≤ S128x4224.size a
  inb_S128x4224_S128x256_0_2569 : ∀ a, (![0, 2569] : Fin 2 → Nat) a + S128x256.size a ≤ S128x4224.size a
  inb_S128x4096_S128x256_0_2560 : ∀ a, (![0, 2560] : Fin 2 → Nat) a + S128x256.size a ≤ S128x4096.size a
  inb_S128x4224_S128x256_0_2816 : ∀ a, (![0, 2816] : Fin 2 → Nat) a + S128x256.size a ≤ S128x4224.size a
  inb_S128x4224_S128x256_0_2817 : ∀ a, (![0, 2817] : Fin 2 → Nat) a + S128x256.size a ≤ S128x4224.size a
  inb_S128x4224_S128x256_0_2818 : ∀ a, (![0, 2818] : Fin 2 → Nat) a + S128x256.size a ≤ S128x4224.size a
  inb_S128x4224_S128x256_0_2819 : ∀ a, (![0, 2819] : Fin 2 → Nat) a + S128x256.size a ≤ S128x4224.size a
  inb_S128x4224_S128x256_0_2820 : ∀ a, (![0, 2820] : Fin 2 → Nat) a + S128x256.size a ≤ S128x4224.size a
  inb_S128x4224_S128x256_0_2821 : ∀ a, (![0, 2821] : Fin 2 → Nat) a + S128x256.size a ≤ S128x4224.size a
  inb_S128x4224_S128x256_0_2822 : ∀ a, (![0, 2822] : Fin 2 → Nat) a + S128x256.size a ≤ S128x4224.size a
  inb_S128x4224_S128x256_0_2823 : ∀ a, (![0, 2823] : Fin 2 → Nat) a + S128x256.size a ≤ S128x4224.size a
  inb_S128x4224_S128x256_0_2824 : ∀ a, (![0, 2824] : Fin 2 → Nat) a + S128x256.size a ≤ S128x4224.size a
  inb_S128x4224_S128x256_0_2825 : ∀ a, (![0, 2825] : Fin 2 → Nat) a + S128x256.size a ≤ S128x4224.size a
  inb_S128x4096_S128x256_0_2816 : ∀ a, (![0, 2816] : Fin 2 → Nat) a + S128x256.size a ≤ S128x4096.size a
  inb_S128x4224_S128x256_0_3072 : ∀ a, (![0, 3072] : Fin 2 → Nat) a + S128x256.size a ≤ S128x4224.size a
  inb_S128x4224_S128x256_0_3073 : ∀ a, (![0, 3073] : Fin 2 → Nat) a + S128x256.size a ≤ S128x4224.size a
  inb_S128x4224_S128x256_0_3074 : ∀ a, (![0, 3074] : Fin 2 → Nat) a + S128x256.size a ≤ S128x4224.size a
  inb_S128x4224_S128x256_0_3075 : ∀ a, (![0, 3075] : Fin 2 → Nat) a + S128x256.size a ≤ S128x4224.size a
  inb_S128x4224_S128x256_0_3076 : ∀ a, (![0, 3076] : Fin 2 → Nat) a + S128x256.size a ≤ S128x4224.size a
  inb_S128x4224_S128x256_0_3077 : ∀ a, (![0, 3077] : Fin 2 → Nat) a + S128x256.size a ≤ S128x4224.size a
  inb_S128x4224_S128x256_0_3078 : ∀ a, (![0, 3078] : Fin 2 → Nat) a + S128x256.size a ≤ S128x4224.size a
  inb_S128x4224_S128x256_0_3079 : ∀ a, (![0, 3079] : Fin 2 → Nat) a + S128x256.size a ≤ S128x4224.size a
  inb_S128x4224_S128x256_0_3080 : ∀ a, (![0, 3080] : Fin 2 → Nat) a + S128x256.size a ≤ S128x4224.size a
  inb_S128x4224_S128x256_0_3081 : ∀ a, (![0, 3081] : Fin 2 → Nat) a + S128x256.size a ≤ S128x4224.size a
  inb_S128x4096_S128x256_0_3072 : ∀ a, (![0, 3072] : Fin 2 → Nat) a + S128x256.size a ≤ S128x4096.size a
  inb_S128x4224_S128x256_0_3328 : ∀ a, (![0, 3328] : Fin 2 → Nat) a + S128x256.size a ≤ S128x4224.size a
  inb_S128x4224_S128x256_0_3329 : ∀ a, (![0, 3329] : Fin 2 → Nat) a + S128x256.size a ≤ S128x4224.size a
  inb_S128x4224_S128x256_0_3330 : ∀ a, (![0, 3330] : Fin 2 → Nat) a + S128x256.size a ≤ S128x4224.size a
  inb_S128x4224_S128x256_0_3331 : ∀ a, (![0, 3331] : Fin 2 → Nat) a + S128x256.size a ≤ S128x4224.size a
  inb_S128x4224_S128x256_0_3332 : ∀ a, (![0, 3332] : Fin 2 → Nat) a + S128x256.size a ≤ S128x4224.size a
  inb_S128x4224_S128x256_0_3333 : ∀ a, (![0, 3333] : Fin 2 → Nat) a + S128x256.size a ≤ S128x4224.size a
  inb_S128x4224_S128x256_0_3334 : ∀ a, (![0, 3334] : Fin 2 → Nat) a + S128x256.size a ≤ S128x4224.size a
  inb_S128x4224_S128x256_0_3335 : ∀ a, (![0, 3335] : Fin 2 → Nat) a + S128x256.size a ≤ S128x4224.size a
  inb_S128x4224_S128x256_0_3336 : ∀ a, (![0, 3336] : Fin 2 → Nat) a + S128x256.size a ≤ S128x4224.size a
  inb_S128x4224_S128x256_0_3337 : ∀ a, (![0, 3337] : Fin 2 → Nat) a + S128x256.size a ≤ S128x4224.size a
  inb_S128x4096_S128x256_0_3328 : ∀ a, (![0, 3328] : Fin 2 → Nat) a + S128x256.size a ≤ S128x4096.size a
  inb_S128x4224_S128x256_0_3584 : ∀ a, (![0, 3584] : Fin 2 → Nat) a + S128x256.size a ≤ S128x4224.size a
  inb_S128x4224_S128x256_0_3585 : ∀ a, (![0, 3585] : Fin 2 → Nat) a + S128x256.size a ≤ S128x4224.size a
  inb_S128x4224_S128x256_0_3586 : ∀ a, (![0, 3586] : Fin 2 → Nat) a + S128x256.size a ≤ S128x4224.size a
  inb_S128x4224_S128x256_0_3587 : ∀ a, (![0, 3587] : Fin 2 → Nat) a + S128x256.size a ≤ S128x4224.size a
  inb_S128x4224_S128x256_0_3588 : ∀ a, (![0, 3588] : Fin 2 → Nat) a + S128x256.size a ≤ S128x4224.size a
  inb_S128x4224_S128x256_0_3589 : ∀ a, (![0, 3589] : Fin 2 → Nat) a + S128x256.size a ≤ S128x4224.size a
  inb_S128x4224_S128x256_0_3590 : ∀ a, (![0, 3590] : Fin 2 → Nat) a + S128x256.size a ≤ S128x4224.size a
  inb_S128x4224_S128x256_0_3591 : ∀ a, (![0, 3591] : Fin 2 → Nat) a + S128x256.size a ≤ S128x4224.size a
  inb_S128x4224_S128x256_0_3592 : ∀ a, (![0, 3592] : Fin 2 → Nat) a + S128x256.size a ≤ S128x4224.size a
  inb_S128x4224_S128x256_0_3593 : ∀ a, (![0, 3593] : Fin 2 → Nat) a + S128x256.size a ≤ S128x4224.size a
  inb_S128x4096_S128x256_0_3584 : ∀ a, (![0, 3584] : Fin 2 → Nat) a + S128x256.size a ≤ S128x4096.size a
  inb_S128x4224_S128x256_0_3840 : ∀ a, (![0, 3840] : Fin 2 → Nat) a + S128x256.size a ≤ S128x4224.size a
  inb_S128x4224_S128x256_0_3841 : ∀ a, (![0, 3841] : Fin 2 → Nat) a + S128x256.size a ≤ S128x4224.size a
  inb_S128x4224_S128x256_0_3842 : ∀ a, (![0, 3842] : Fin 2 → Nat) a + S128x256.size a ≤ S128x4224.size a
  inb_S128x4224_S128x256_0_3843 : ∀ a, (![0, 3843] : Fin 2 → Nat) a + S128x256.size a ≤ S128x4224.size a
  inb_S128x4224_S128x256_0_3844 : ∀ a, (![0, 3844] : Fin 2 → Nat) a + S128x256.size a ≤ S128x4224.size a
  inb_S128x4224_S128x256_0_3845 : ∀ a, (![0, 3845] : Fin 2 → Nat) a + S128x256.size a ≤ S128x4224.size a
  inb_S128x4224_S128x256_0_3846 : ∀ a, (![0, 3846] : Fin 2 → Nat) a + S128x256.size a ≤ S128x4224.size a
  inb_S128x4224_S128x256_0_3847 : ∀ a, (![0, 3847] : Fin 2 → Nat) a + S128x256.size a ≤ S128x4224.size a
  inb_S128x4224_S128x256_0_3848 : ∀ a, (![0, 3848] : Fin 2 → Nat) a + S128x256.size a ≤ S128x4224.size a
  inb_S128x4224_S128x256_0_3849 : ∀ a, (![0, 3849] : Fin 2 → Nat) a + S128x256.size a ≤ S128x4224.size a
  inb_S128x4096_S128x256_0_3840 : ∀ a, (![0, 3840] : Fin 2 → Nat) a + S128x256.size a ≤ S128x4096.size a
  slices_S2048x4096_S2048x4086_0_0 : S2048x4096.Slices ![0, 0] S2048x4086
  slices_S2048x4086_S2048x1_0_0 : S2048x4086.Slices ![0, 0] S2048x1
  bcast_S2048x1_S2048x10_0_1 : S2048x1.BroadcastsInDim S2048x10 (![0, 1] : Fin 2 → Fin S2048x10.rank)
  concatenates_S2048x10_S2048x4086_S2048x4096_d1 : Shape.Concatenates [S2048x10, S2048x4086] S2048x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4224.size a ≤ S2048x4224.size a
  hwx0_0 : ∀ i : grid0.Coords, EltTy.bits .f32 = 32 ∨ (Rect.block (s := S2048x4224) S128x4224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x10.size a ≤ S32x10.size a
  hwx0_1 : ∀ i : grid0.Coords, EltTy.bits .f32 = 32 ∨ (Rect.block (s := S32x10) S32x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S2048x4096.size a
  hwx0_5 : ∀ i : grid0.Coords, EltTy.bits .f32 = 32 ∨ (Rect.block (s := S2048x4096) S128x4096.size (cc0_transform_5 i) (hinb0_5 i)).WholeWords (EltTy.packing .f32)

variable [Facts₀]

abbrev win0_0 : Pipeline.Window sig grid0 :=
  Pipeline.Window.ofSpec (Memref.whole main_v0) S128x4224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S4086 : Shape := ⟨1, ![4086]⟩
abbrev S4086x1 : Shape := ⟨2, ![4086, 1]⟩
abbrev S10 : Shape := ⟨1, ![10]⟩
abbrev S1x10 : Shape := ⟨2, ![1, 10]⟩
abbrev S4086x10 : Shape := ⟨2, ![4086, 10]⟩
abbrev S_ : Shape := ⟨0, ![]⟩
abbrev S4086x10x1 : Shape := ⟨3, ![4086, 10, 1]⟩
abbrev S2048x4086x10 : Shape := ⟨3, ![2048, 4086, 10]⟩
abbrev S2048x4086x32 : Shape := ⟨3, ![2048, 4086, 32]⟩
abbrev S1x1x32 : Shape := ⟨3, ![1, 1, 32]⟩
abbrev S2048x4086x1 : Shape := ⟨3, ![2048, 4086, 1]⟩
abbrev S1x1x1 : Shape := ⟨3, ![1, 1, 1]⟩
abbrev S2048x4086 : Shape := ⟨2, ![2048, 4086]⟩
abbrev S2048x1 : Shape := ⟨2, ![2048, 1]⟩
abbrev S2048x10 : Shape := ⟨2, ![2048, 10]⟩

abbrev nBuf : Space → Nat
  | .hbm => 47
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32x10, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S4086, .i32⟩
  | .hbm, ⟨6, _⟩ => ⟨S4086x1, .i32⟩
  | .hbm, ⟨7, _⟩ => ⟨S10, .i32⟩
  | .hbm, ⟨8, _⟩ => ⟨S1x10, .i32⟩
  | .hbm, ⟨9, _⟩ => ⟨S4086x10, .i32⟩
  | .hbm, ⟨10, _⟩ => ⟨S4086x10, .i32⟩
  | .hbm, ⟨11, _⟩ => ⟨S4086x10, .i32⟩
  | .hbm, ⟨12, _⟩ => ⟨S_, .i32⟩
  | .hbm, ⟨13, _⟩ => ⟨S4086x10, .i32⟩
  | .hbm, ⟨14, _⟩ => ⟨S4086x10, .i1⟩
  | .hbm, ⟨15, _⟩ => ⟨S_, .i32⟩
  | .hbm, ⟨16, _⟩ => ⟨S4086x10, .i32⟩
  | .hbm, ⟨17, _⟩ => ⟨S4086x10, .i32⟩
  | .hbm, ⟨18, _⟩ => ⟨S4086x10, .i32⟩
  | .hbm, ⟨19, _⟩ => ⟨S4086x10x1, .i32⟩
  | .hbm, ⟨20, _⟩ => ⟨S2048x4086x10, .f32⟩
  | .hbm, ⟨21, _⟩ => ⟨S2048x4086x32, .f32⟩
  | .hbm, ⟨22, _⟩ => ⟨S1x1x32, .f32⟩
  | .hbm, ⟨23, _⟩ => ⟨S2048x4086x32, .f32⟩
  | .hbm, ⟨24, _⟩ => ⟨S2048x4086x32, .f32⟩
  | .hbm, ⟨25, _⟩ => ⟨S_, .f32⟩
  | .hbm, ⟨26, _⟩ => ⟨S2048x4086x32, .f32⟩
  | .hbm, ⟨27, _⟩ => ⟨S2048x4086x32, .f32⟩
  | .hbm, ⟨28, _⟩ => ⟨S2048x4086x1, .f32⟩
  | .hbm, ⟨29, _⟩ => ⟨S1x1x1, .f32⟩
  | .hbm, ⟨30, _⟩ => ⟨S2048x4086x1, .f32⟩
  | .hbm, ⟨31, _⟩ => ⟨S2048x4086x1, .f32⟩
  | .hbm, ⟨32, _⟩ => ⟨S2048x4086x1, .f32⟩
  | .hbm, ⟨33, _⟩ => ⟨S2048x4086x1, .f32⟩
  | .hbm, ⟨34, _⟩ => ⟨S_, .f32⟩
  | .hbm, ⟨35, _⟩ => ⟨S2048x4086x1, .f32⟩
  | .hbm, ⟨36, _⟩ => ⟨S2048x4086x1, .f32⟩
  | .hbm, ⟨37, _⟩ => ⟨S_, .f32⟩
  | .hbm, ⟨38, _⟩ => ⟨S2048x4086x1, .f32⟩
  | .hbm, ⟨39, _⟩ => ⟨S2048x4086x1, .f32⟩
  | .hbm, ⟨40, _⟩ => ⟨S2048x4086, .f32⟩
  | .hbm, ⟨41, _⟩ => ⟨S_, .f32⟩
  | .hbm, ⟨42, _⟩ => ⟨S2048x4086, .f32⟩
  | .hbm, ⟨43, _⟩ => ⟨S2048x4086, .f32⟩
  | .hbm, ⟨44, _⟩ => ⟨S2048x1, .f32⟩
  | .hbm, ⟨45, _⟩ => ⟨S2048x10, .f32⟩
  | .hbm, ⟨46, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S4086_S4086x1_0 : S4086.BroadcastsInDim S4086x1 (![0] : Fin 1 → Fin S4086x1.rank)
  bcast_S10_S1x10_1 : S10.BroadcastsInDim S1x10 (![1] : Fin 1 → Fin S1x10.rank)
  bcast_S4086x1_S4086x10_0_1 : S4086x1.BroadcastsInDim S4086x10 (![0, 1] : Fin 2 → Fin S4086x10.rank)
  bcast_S1x10_S4086x10_0_1 : S1x10.BroadcastsInDim S4086x10 (![0, 1] : Fin 2 → Fin S4086x10.rank)
  bcast_S_S4086x10 : S_.BroadcastsInDim S4086x10 (![] : Fin 0 → Fin S4086x10.rank)
  bcast_S4086x10_S4086x10x1_0_1 : S4086x10.BroadcastsInDim S4086x10x1 (![0, 1] : Fin 2 → Fin S4086x10x1.rank)
  bcast_S32_S1x1x32_2 : S32.BroadcastsInDim S1x1x32 (![2] : Fin 1 → Fin S1x1x32.rank)
  bcast_S1x1x32_S2048x4086x32_0_1_2 : S1x1x32.BroadcastsInDim S2048x4086x32 (![0, 1, 2] : Fin 3 → Fin S2048x4086x32.rank)
  bcast_S_S2048x4086x32 : S_.BroadcastsInDim S2048x4086x32 (![] : Fin 0 → Fin S2048x4086x32.rank)
  bcast_S1_S1x1x1_2 : S1.BroadcastsInDim S1x1x1 (![2] : Fin 1 → Fin S1x1x1.rank)
  bcast_S1x1x1_S2048x4086x1_0_1_2 : S1x1x1.BroadcastsInDim S2048x4086x1 (![0, 1, 2] : Fin 3 → Fin S2048x4086x1.rank)
  bcast_S_S2048x4086x1 : S_.BroadcastsInDim S2048x4086x1 (![] : Fin 0 → Fin S2048x4086x1.rank)
  shapeCasts_S2048x4086x1_S2048x4086 : S2048x4086x1.ShapeCasts S2048x4086
  bcast_S_S2048x4086 : S_.BroadcastsInDim S2048x4086 (![] : Fin 0 → Fin S2048x4086.rank)
  slices_S2048x4086_S2048x1_0_0 : S2048x4086.Slices ![0, 0] S2048x1
  bcast_S2048x1_S2048x10_0_1 : S2048x1.BroadcastsInDim S2048x10 (![0, 1] : Fin 2 → Fin S2048x10.rank)
  concatenates_S2048x10_S2048x4086_S2048x4096_d1 : Shape.Concatenates [S2048x10, S2048x4086] S2048x4096 1
  gather_S2048x4096_S4086x10x1_S2048x4086x10_0_1_n_n_1_2_20481_wf : GatherDims.WF S2048x4096 S4086x10x1 S2048x4086x10 [0] [1] [] [1] [] 2 ![2048, 1]
  dot_S2048x4086x10_S32x10_S2048x4086x32_2_1_01_0_n_n_wf : DotDims.WF S2048x4086x10 S32x10 S2048x4086x32 [2] [1] [0, 1] [0] [] []
  dot_S2048x4086x32_S1x32_S2048x4086x1_2_1_01_0_n_n_wf : DotDims.WF S2048x4086x32 S1x32 S2048x4086x1 [2] [1] [0, 1] [0] [] []

variable [Facts₀]

def gather_S2048x4096_S4086x10x1_S2048x4086x10_0_1_n_n_1_2_20481 : GatherDims S2048x4096 S4086x10x1 S2048x4086x10 where
  offsetDims := [0]
  collapsedSliceDims := [1]
  operandBatchingDims := []
  startIndicesBatchingDims := []
  startIndexMap := [1]
  indexVectorDim := 2
  sliceSizes := ![2048, 1]
  wf := gather_S2048x4096_S4086x10x1_S2048x4086x10_0_1_n_n_1_2_20481_wf
def dot_S2048x4086x10_S32x10_S2048x4086x32_2_1_01_0_n_n : DotDims S2048x4086x10 S32x10 S2048x4086x32 where
  lhsContracting := [2]
  rhsContracting := [1]
  lhsNonContracting := [0, 1]
  rhsNonContracting := [0]
  lhsBatch := []
  rhsBatch := []
  wf := dot_S2048x4086x10_S32x10_S2048x4086x32_2_1_01_0_n_n_wf
def dot_S2048x4086x32_S1x32_S2048x4086x1_2_1_01_0_n_n : DotDims S2048x4086x32 S1x32 S2048x4086x1 where
  lhsContracting := [2]
  rhsContracting := [1]
  lhsNonContracting := [0, 1]
  rhsNonContracting := [0]
  lhsBatch := []
  rhsBatch := []
  wf := dot_S2048x4086x32_S1x32_S2048x4086x1_2_1_01_0_n_n_wf

class Facts : Prop extends Facts₀ where

variable [Facts]
-- ==== Proof.ChunkDef.lean ====
/-
  One time-chunk of the kernel body, as one function of what it loads: the ten shifted 128 x 256 slabs of the padded
  row block (slab k starts k columns to the right), the first-layer weights and bias, the second-layer row and bias.
  The accumulator starts at zero and takes, slab by slab, the outer product of the slab with column k of the weights;
  then the bias, the rectifier, the product with the second-layer row summed over the 32 hidden units, the second
  bias, the logistic, and the factor one half.  The operations are spelt as the body spells them, so that every chunk
  of the body is this function of its own ten slabs.
-/
import proofs.«150225_j51960514347079_1_alg».proof.Proof.Gen.KernelIdeal

noncomputable section

namespace Cert.KernelIdeal.Chunk

open Idealize.ShloMosaic Cert.KernelIdeal Cert.KernelIdeal.Gen

variable {F : FTy → Type} [FloatOps F]

/-- One tap of the window: the slab, repeated along the hidden axis, times one column of the first-layer weights,
    repeated along rows and columns. -/
def tap (l : Vec F S128x256 .f32) (wk : FVec F S32x1 .f32) : FVec F S128x256x32 .f32 :=
  mulf
    (broadcastTo S128x256x32 (shapeCast S128x256x1 (shapeCast S128x256 l shapeCasts_S128x256_S128x256) shapeCasts_S128x256_S128x256x1)
      broadcasts_S128x256x1_S128x256x32)
    (broadcastTo S128x256x32 (shapeCast S1x1x32 (shapeCast S32 wk shapeCasts_S32x1_S32) shapeCasts_S32_S1x1x32)
      broadcasts_S1x1x32_S128x256x32)

/-- The ten taps added up from zero, in the order the body adds them. -/
def pre (W1 : Vec F S32x10 .f32) (l0 l1 l2 l3 l4 l5 l6 l7 l8 l9 : Vec F S128x256 .f32) : FVec F S128x256x32 .f32 :=
  (addf (addf (addf (addf (addf (addf (addf (addf (addf (addf (broadcast S128x256x32 (Scalar.ofBits .f32 0x00000000#32))
      (tap l0 (extractStridedSlice S32x1 ![0, 0] W1 slices_S32x10_o0_0_S32x1)))
      (tap l1 (extractStridedSlice S32x1 ![0, 1] W1 slices_S32x10_o0_1_S32x1)))
      (tap l2 (extractStridedSlice S32x1 ![0, 2] W1 slices_S32x10_o0_2_S32x1)))
      (tap l3 (extractStridedSlice S32x1 ![0, 3] W1 slices_S32x10_o0_3_S32x1)))
      (tap l4 (extractStridedSlice S32x1 ![0, 4] W1 slices_S32x10_o0_4_S32x1)))
      (tap l5 (extractStridedSlice S32x1 ![0, 5] W1 slices_S32x10_o0_5_S32x1)))
      (tap l6 (extractStridedSlice S32x1 ![0, 6] W1 slices_S32x10_o0_6_S32x1)))
      (tap l7 (extractStridedSlice S32x1 ![0, 7] W1 slices_S32x10_o0_7_S32x1)))
      (tap l8 (extractStridedSlice S32x1 ![0, 8] W1 slices_S32x10_o0_8_S32x1)))
      (tap l9 (extractStridedSlice S32x1 ![0, 9] W1 slices_S32x10_o0_9_S32x1)))

/-- The chunk's 128 x 256 result from its ten slabs. -/
def chunk (W1 : Vec F S32x10 .f32) (b1 : Vec F S32 .f32) (b2s : F .f32) (w2 : FVec F S32 .f32)
    (l0 l1 l2 l3 l4 l5 l6 l7 l8 l9 : Vec F S128x256 .f32) : FVec F S128x256 .f32 :=
  mulf (broadcast S128x256 (Scalar.ofBits .f32 0x3F000000#32))
    (logistic (addf
      (multiReduction .add [2] S128x256
        (mulf
          (maximumf
            (addf (pre W1 l0 l1 l2 l3 l4 l5 l6 l7 l8 l9)
              (broadcastTo S128x256x32 (shapeCast S1x1x32 b1 shapeCasts_S32_S1x1x32) broadcasts_S1x1x32_S128x256x32))
            (broadcast S128x256x32 (Scalar.ofBits .f32 0x00000000#32)))
          (broadcastTo S128x256x32 (shapeCast S1x1x32 w2 shapeCasts_S32_S1x1x32) broadcasts_S1x1x32_S128x256x32))
        0x00000000#32 reduces_S128x256x32_S128x256 (.inl rfl) rfl)
      (broadcast S128x256 b2s)))

end Cert.KernelIdeal.Chunk

end
-- ==== Proof.Spec.lean ====
/-
  The mathematics both programs compute, stated once, with no program in sight.

  A window of ten consecutive entries of a row is sent through a two-layer perceptron: 32 hidden units, each the
  rectified affine image of the window, then one affine read-out, squashed by half the logistic function.  Entry (r, t) of
  the 2048 x 4086 array of estimates reads the window of row r that starts at column t (columns t .. t + 9, so the
  last window ends at column 4094).
-/
import Idealize.ShloMosaic.PureOps.Ideal
import Idealize.ShloMosaic.Lib.ValueIdx

noncomputable section

open scoped BigOperators

namespace Cert.SlidingMlp

open Idealize.ShloMosaic Idealize.ShloMosaic.ValueIdx

/-- The estimate of ONE window `win 0 .. win 9`: hidden unit `h` is `max (sum_k win k * W1[h, k] + b1[h]) 0`, the read-out is
    `sum_h hidden h * W2[0, h] + b2[0]`, and the estimate is one half of its logistic. (Zero and one half are kept as the
    words both programs print.) -/
def est (W1 : (⟨2, ![32, 10]⟩ : Shape).Idx → EReal) (b1 : (⟨1, ![32]⟩ : Shape).Idx → EReal)
    (W2 : (⟨2, ![1, 32]⟩ : Shape).Idx → EReal) (b2 : (⟨1, ![1]⟩ : Shape).Idx → EReal) (win : Fin 10 → EReal) : EReal :=
  Ideal.ofBits .f32 0x3F000000#32 * Ideal.logistic
    ((∑ h : Fin 32, max ((∑ k : Fin 10, win k * W1 (ix2 h k)) + b1 (ix1 h)) (Ideal.ofBits .f32 0x00000000#32) * W2 (ix2 0 h))
      + b2 (ix1 0))

/-- Entry `k` of the window of row `r` that starts at column `t`. -/
def winAt (x : (⟨2, ![2048, 4096]⟩ : Shape).Idx → EReal) (r : Fin 2048) (t : Fin 4086) (k : Fin 10) : EReal :=
  x (ix2 r ⟨t.val + k.val, by omega⟩)

/-- The 2048 x 4086 array of estimates: entry (r, t) is the estimate of row r's window starting at column t. -/
def hurst (x : (⟨2, ![2048, 4096]⟩ : Shape).Idx → EReal) (W1 : (⟨2, ![32, 10]⟩ : Shape).Idx → EReal)
    (b1 : (⟨1, ![32]⟩ : Shape).Idx → EReal) (W2 : (⟨2, ![1, 32]⟩ : Shape).Idx → EReal) (b2 : (⟨1, ![1]⟩ : Shape).Idx → EReal) :
    (⟨2, ![2048, 4086]⟩ : Shape).Idx → EReal :=
  fun i => est W1 b1 W2 b2 (winAt x (i 0) (i 1))

end Cert.SlidingMlp

end
-- ==== Proof.ChunkAt.lean ====
/-
  One time-chunk of the kernel body read at one position (p, q) of its 128 x 256 result.

  Hidden unit h sees the ten slabs at (p, q) as a window: tap k contributes slab k at (p, q) times the weight W1[h, k], and the
  taps are added from zero in order, which is the sum over k of window k times W1[h, k].  Then the bias b1[h], the rectifier
  (the maximum with the zero word), the product with the read-out weight W2[0, h] summed over the 32 hidden units, the bias
  b2[0], the logistic and the factor one half: the estimate of that window, as the specification states it.

  The layout operations are read at explicit coordinates first (a slab repeated along the hidden axis, a length-32 vector
  repeated over the positions, a column of the first-layer weights, the flattened read-out row, the one entry of the second
  bias, the sum over the hidden axis); the chunk at (p, q) is then those readings put together.
-/
import proofs.«150225_j51960514347079_1_alg».proof.Proof.ChunkDef
import proofs.«150225_j51960514347079_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chunk

open Idealize.ShloMosaic Idealize.ShloMosaic.ValueIdx Cert.KernelIdeal Cert.KernelIdeal.Gen

/-! ## Layout operations of the chunk at explicit coordinates -/

section Layout
variable {α : Type}

/-- A 128 x 256 slab given a trailing unit axis and repeated along 32 lanes reads, at (p, q, h), the slab at (p, q). -/
theorem slab_bcast_apply (l : S128x256.Idx → α) (h1 : S128x256.ShapeCasts S128x256x1)
    (h2 : S128x256x1.Broadcasts S128x256x32) (p : Fin 128) (q : Fin 256) (h : Fin 32) :
    broadcastTo S128x256x32 (shapeCast S128x256x1 l h1) h2 (ix3 p q h) = l (ix2 p q) := by
  refine (broadcastTo_apply _ h2 (ix3 p q h) (ix3 p q (0 : Fin 1)) fun ax => ?_).trans ?_
  · match ax with
    | ⟨0, _⟩ => rfl
    | ⟨1, _⟩ => rfl
    | ⟨2, _⟩ => rfl
  · refine shapeCast_apply l h1 (ix3 p q (0 : Fin 1)) (ix2 p q) ?_
    rw [Shape.rowMajor_val_three, Shape.rowMajor_val_two]
    show p.val * 256 + q.val = (p.val * 256 + q.val) * 1 + 0
    omega

/-- A length-32 vector viewed as 1 x 1 x 32 and repeated over 128 x 256 positions reads, at (p, q, h), the vector at h. -/
theorem lane_bcast_apply (v : S32.Idx → α) (h1 : S32.ShapeCasts S1x1x32)
    (h2 : S1x1x32.Broadcasts S128x256x32) (p : Fin 128) (q : Fin 256) (h : Fin 32) :
    broadcastTo S128x256x32 (shapeCast S1x1x32 v h1) h2 (ix3 p q h) = v (ix1 h) := by
  refine (broadcastTo_apply _ h2 (ix3 p q h) (ix3 (0 : Fin 1) (0 : Fin 1) h) fun ax => ?_).trans ?_
  · match ax with
    | ⟨0, _⟩ => rfl
    | ⟨1, _⟩ => rfl
    | ⟨2, _⟩ => rfl
  · refine shapeCast_apply v h1 (ix3 (0 : Fin 1) (0 : Fin 1) h) (ix1 h) ?_
    rw [Shape.rowMajor_val_three, Shape.rowMajor_val_one]
    show h.val = (0 * 1 + 0) * 32 + h.val
    omega

/-- The column of the 32 x 10 weights at offset o, cut out as 32 x 1 and flattened, reads row h of column k = o. -/
theorem col_apply (W : S32x10.Idx → α) (o : Nat) (hs : S32x10.Slices ![0, o] S32x1) (hc : S32x1.ShapeCasts S32)
    (k : Fin 10) (hk : k.val = o) (h : Fin 32) :
    shapeCast S32 (extractStridedSlice S32x1 ![0, o] W hs) hc (ix1 h) = W (ix2 h k) := by
  refine (shapeCast_apply _ hc (ix1 h) (ix2 h (0 : Fin 1)) ?_).trans ?_
  · rw [Shape.rowMajor_val_two, Shape.rowMajor_val_one]
    show h.val * 1 + 0 = h.val
    omega
  · exact slice2_axis1_apply o W hs h (0 : Fin 1) k hk

/-- The 1 x 32 read-out row flattened reads, at h, the row at (0, h). -/
theorem row_apply (W : S1x32.Idx → α) (hc : S1x32.ShapeCasts S32) (h : Fin 32) :
    shapeCast S32 W hc (ix1 h) = W (ix2 (0 : Fin 1) h) :=
  shapeCast_1a_a_apply W hc h

/-- The one entry of a length-1 vector. -/
theorem extractAt_one (b : S1.Idx → α) (hp : ∀ a, (![0] : Fin 1 → Nat) a < S1.size a) :
    extractAt ![0] b hp = b (ix1 (0 : Fin 1)) := by
  unfold extractAt
  refine congrArg b (funext fun a => ?_)
  match a with
  | ⟨0, _⟩ => rfl

end Layout

/-- The logistic of a vector, at an index, is the logistic of the element. -/
theorem logistic_apply {s : Shape} {φ : FTy} (a : FVec Ideal s φ) (i : s.Idx) : logistic a i = Ideal.logistic (a i) := rfl

/-- The sum over the 32 lanes at (p, q). -/
theorem lane_sum_apply (src : FVec Ideal S128x256x32 .f32) (hr : S128x256x32.Reduces [2] S128x256)
    (hφ : FKind.Formats .f32) (hacc : (0x00000000#32 : BitVec 32) = FKind.add.neutral .f32 hφ) (p : Fin 128) (q : Fin 256) :
    multiReduction (F := Ideal) .add [2] S128x256 src 0x00000000#32 hr hφ hacc (ix2 p q) = ∑ h : Fin 32, src (ix3 p q h) := by
  refine (Ideal.multiReduction_add_single src _ hr hφ hacc (ix2 p q)).trans ?_
  refine Finset.sum_congr rfl fun h _ => congrArg src (funext fun c => Fin.ext ?_)
  match c with
  | ⟨0, _⟩ => rfl
  | ⟨1, _⟩ => rfl
  | ⟨2, _⟩ => rfl

/-- A sum of ten terms, added from zero in order. -/
theorem sum_ten (f : Fin 10 → EReal) :
    ∑ k, f k = ((((((((((0 + f 0) + f 1) + f 2) + f 3) + f 4) + f 5) + f 6) + f 7) + f 8) + f 9) := by
  rw [Fin.sum_univ_castSucc, Fin.sum_univ_castSucc, Fin.sum_univ_eight, zero_add]
  rfl

/-- One tap at (p, q, h): the slab at (p, q) times the weight of hidden unit h at the tap's column. -/
theorem tap_apply (l : Vec Ideal S128x256 .f32) (W1 : Vec Ideal S32x10 .f32) (o : Nat) (hs : S32x10.Slices ![0, o] S32x1)
    (k : Fin 10) (hk : k.val = o) (p : Fin 128) (q : Fin 256) (h : Fin 32) :
    tap (F := Ideal) l (extractStridedSlice S32x1 ![0, o] W1 hs) (ix3 p q h) = l (ix2 p q) * W1 (ix2 h k) := by
  unfold tap
  rw [mulf_apply, shapeCast_self, slab_bcast_apply, lane_bcast_apply, col_apply W1 o hs _ k hk h]

/-- The ten taps added up from zero, at (p, q, h): the window's inner product with row h of the first-layer weights. -/
theorem pre_apply (W1 : Vec Ideal S32x10 .f32) (l0 l1 l2 l3 l4 l5 l6 l7 l8 l9 : Vec Ideal S128x256 .f32)
    (p : Fin 128) (q : Fin 256) (h : Fin 32) :
    pre (F := Ideal) W1 l0 l1 l2 l3 l4 l5 l6 l7 l8 l9 (ix3 p q h)
      = ∑ k : Fin 10, (![l0, l1, l2, l3, l4, l5, l6, l7, l8, l9] : Fin 10 → Vec Ideal S128x256 .f32) k (ix2 p q) * W1 (ix2 h k) := by
  rw [sum_ten]
  unfold pre
  simp only [addf_apply, broadcast_apply]
  rw [tap_apply l0 W1 0 _ 0 rfl, tap_apply l1 W1 1 _ 1 rfl, tap_apply l2 W1 2 _ 2 rfl, tap_apply l3 W1 3 _ 3 rfl,
    tap_apply l4 W1 4 _ 4 rfl, tap_apply l5 W1 5 _ 5 rfl, tap_apply l6 W1 6 _ 6 rfl, tap_apply l7 W1 7 _ 7 rfl,
    tap_apply l8 W1 8 _ 8 rfl, tap_apply l9 W1 9 _ 9 rfl]
  show Ideal.ofBits .f32 0x00000000#32 + _ + _ + _ + _ + _ + _ + _ + _ + _ + _ = _
  rw [Ideal.ofBits_zero_f32]
  rfl

/-- THE CHUNK AT (p, q): the estimate of the window the ten slabs hold there. -/
theorem chunk_est (W1 : Vec Ideal S32x10 .f32) (b1 : Vec Ideal S32 .f32) (W2 : Vec Ideal S1x32 .f32) (b2 : Vec Ideal S1 .f32)
    (l0 l1 l2 l3 l4 l5 l6 l7 l8 l9 : Vec Ideal S128x256 .f32) (p : Fin 128) (q : Fin 256) :
    chunk (F := Ideal) W1 b1 (extractAt ![0] b2 inpos_S1_p0) (shapeCast S32 W2 shapeCasts_S1x32_S32) l0 l1 l2 l3 l4 l5 l6 l7 l8 l9 (ix2 p q)
      = Cert.SlidingMlp.est W1 b1 W2 b2 (fun k => (![l0, l1, l2, l3, l4, l5, l6, l7, l8, l9] : Fin 10 → Vec Ideal S128x256 .f32) k (ix2 p q)) := by
  unfold chunk Cert.SlidingMlp.est
  rw [mulf_apply, broadcast_apply, logistic_apply, addf_apply, broadcast_apply, extractAt_one]
  refine congrArg (fun z => Ideal.ofBits .f32 0x3F000000#32 * Ideal.logistic (z + b2 (ix1 (0 : Fin 1)))) ?_
  refine (lane_sum_apply _ _ _ _ p q).trans ?_
  refine Finset.sum_congr rfl fun h _ => ?_
  rw [mulf_apply, maximumf_apply, addf_apply, broadcast_apply, lane_bcast_apply, lane_bcast_apply, row_apply, pre_apply]
  rfl

end Cert.KernelIdeal.Chunk

end
-- ==== Proof.Block.lean ====
/-
  One grid point's output block.  Entry (p, j) of the 128 x 4096 block is the estimate of the window of row p of the
  padded 128 x 4224 input block that starts at column j.  A time-chunk loads ten slabs, slab k shifted k columns to the
  right of the chunk's first column `off`, so at (p, q) slab k holds entry k of the window starting at column
  `off + q`, which is where the chunk's store rectangle puts (p, q).
-/
import proofs.«150225_j51960514347079_1_alg».proof.Proof.Gen.KernelIdeal.Frame
import proofs.«150225_j51960514347079_1_alg».proof.Proof.ChunkAt
import proofs.«150225_j51960514347079_1_alg».proof.Proof.Spec
import Idealize.ShloMosaic.Lib.Pipeline.Value
import Idealize.ShloMosaic.Lib.ValueIdx

noncomputable section

namespace Cert.KernelIdeal.Chunk

open Idealize.ShloMosaic Idealize.ShloMosaic.ValueIdx Cert.KernelIdeal Cert.KernelIdeal.Gen

/-- Entry `k` of the window of row `p` of the padded 128 x 4224 block that starts at column `j`. -/
def slab (x0 : S128x4224.Idx → EReal) (p : Fin 128) (j : Fin 4096) (k : Fin 10) : EReal :=
  x0 (ix2 p ⟨j.val + k.val, by omega⟩)

/-- What one grid point leaves in its 128 x 4096 output block: entry (p, j) is the estimate of the window of row p of
    the padded input block that starts at column j. -/
def blockFn (x0 : S128x4224.Idx → EReal) (W1 : S32x10.Idx → EReal) (b1 : S32.Idx → EReal) (W2 : S1x32.Idx → EReal)
    (b2 : S1.Idx → EReal) : S128x4096.Idx → EReal :=
  fun y => Cert.SlidingMlp.est W1 b1 W2 b2 (slab x0 (y 0) (y 1))

/-- A slab loaded `k` columns to the right of a chunk's first column, read at (p, q), is entry `k` of the window that
    starts where the chunk's store rectangle puts (p, q). -/
theorem ld_slab (x0 : Vec Ideal S128x4224 .f32) (off o k : ℕ) (ho : o = off + k) (hk : k < 10)
    (ib : ∀ a, (![0, off] : Fin 2 → ℕ) a + S128x256.size a ≤ S128x4096.size a)
    (ik : ∀ a, (![0, o] : Fin 2 → ℕ) a + S128x256.size a ≤ S128x4224.size a) (p : Fin 128) (q : Fin 256) :
    (View.ld x0 (Rect.unit (s := S128x4224) ![0, o] S128x256.size ik) (ix2 p q) : EReal)
      = slab x0 ((Rect.unit (s := S128x4096) ![0, off] S128x256.size ib).emb (ix2 p q) 0)
          ((Rect.unit (s := S128x4096) ![0, off] S128x256.size ib).emb (ix2 p q) 1) ⟨k, hk⟩ := by
  subst ho
  unfold slab
  show x0 _ = x0 _
  refine congrArg x0 (funext fun a => Fin.ext ?_)
  match a with
  | ⟨0, _⟩ => rfl
  | ⟨1, _⟩ => show off + k + 1 * q.val = off + 1 * q.val + k; omega

/-- One time-chunk: the chunk function of the ten slabs loaded at columns `off .. off + 9` is the block function along the
    store rectangle at column `off`. (The second-layer bias enters as entry 0 of its one-entry vector and the
    second-layer weights as the row of their 1 x 32 matrix: `k0_pay2` and `k0_pay3`.) -/
theorem chunk_block (x0 : Vec Ideal S128x4224 .f32) (W1 : Vec Ideal S32x10 .f32) (b1 : Vec Ideal S32 .f32)
    (W2 : Vec Ideal S1x32 .f32) (b2 : Vec Ideal S1 .f32) (off o0 o1 o2 o3 o4 o5 o6 o7 o8 o9 : ℕ)
    (h0 : o0 = off + 0) (h1 : o1 = off + 1) (h2 : o2 = off + 2) (h3 : o3 = off + 3) (h4 : o4 = off + 4)
    (h5 : o5 = off + 5) (h6 : o6 = off + 6) (h7 : o7 = off + 7) (h8 : o8 = off + 8) (h9 : o9 = off + 9)
    (ib : ∀ a, (![0, off] : Fin 2 → ℕ) a + S128x256.size a ≤ S128x4096.size a)
    (i0 : ∀ a, (![0, o0] : Fin 2 → ℕ) a + S128x256.size a ≤ S128x4224.size a)
    (i1 : ∀ a, (![0, o1] : Fin 2 → ℕ) a + S128x256.size a ≤ S128x4224.size a)
    (i2 : ∀ a, (![0, o2] : Fin 2 → ℕ) a + S128x256.size a ≤ S128x4224.size a)
    (i3 : ∀ a, (![0, o3] : Fin 2 → ℕ) a + S128x256.size a ≤ S128x4224.size a)
    (i4 : ∀ a, (![0, o4] : Fin 2 → ℕ) a + S128x256.size a ≤ S128x4224.size a)
    (i5 : ∀ a, (![0, o5] : Fin 2 → ℕ) a + S128x256.size a ≤ S128x4224.size a)
    (i6 : ∀ a, (![0, o6] : Fin 2 → ℕ) a + S128x256.size a ≤ S128x4224.size a)
    (i7 : ∀ a, (![0, o7] : Fin 2 → ℕ) a + S128x256.size a ≤ S128x4224.size a)
    (i8 : ∀ a, (![0, o8] : Fin 2 → ℕ) a + S128x256.size a ≤ S128x4224.size a)
    (i9 : ∀ a, (![0, o9] : Fin 2 → ℕ) a + S128x256.size a ≤ S128x4224.size a)
    (x : (Rect.unit (s := S128x4096) ![0, off] S128x256.size ib).shape.Idx) :
    chunk (F := Ideal) W1 b1 (k0_pay2 b2) (k0_pay3 W2)
        (View.ld x0 (Rect.unit (s := S128x4224) ![0, o0] S128x256.size i0))
        (View.ld x0 (Rect.unit (s := S128x4224) ![0, o1] S128x256.size i1))
        (View.ld x0 (Rect.unit (s := S128x4224) ![0, o2] S128x256.size i2))
        (View.ld x0 (Rect.unit (s := S128x4224) ![0, o3] S128x256.size i3))
        (View.ld x0 (Rect.unit (s := S128x4224) ![0, o4] S128x256.size i4))
        (View.ld x0 (Rect.unit (s := S128x4224) ![0, o5] S128x256.size i5))
        (View.ld x0 (Rect.unit (s := S128x4224) ![0, o6] S128x256.size i6))
        (View.ld x0 (Rect.unit (s := S128x4224) ![0, o7] S128x256.size i7))
        (View.ld x0 (Rect.unit (s := S128x4224) ![0, o8] S128x256.size i8))
        (View.ld x0 (Rect.unit (s := S128x4224) ![0, o9] S128x256.size i9)) x
      = blockFn x0 W1 b1 W2 b2 ((Rect.unit (s := S128x4096) ![0, off] S128x256.size ib).emb x) := by
  obtain ⟨p, q, rfl⟩ : ∃ (p : Fin 128) (q : Fin 256), x = ix2 p q := ⟨x 0, x 1, eq_ix2 x⟩
  refine (chunk_est W1 b1 W2 b2 _ _ _ _ _ _ _ _ _ _ p q).trans ?_
  unfold blockFn
  refine congrArg (Cert.SlidingMlp.est W1 b1 W2 b2) (funext fun k => ?_)
  match k with
  | ⟨0, _⟩ => exact ld_slab x0 off o0 0 h0 _ ib i0 p q
  | ⟨1, _⟩ => exact ld_slab x0 off o1 1 h1 _ ib i1 p q
  | ⟨2, _⟩ => exact ld_slab x0 off o2 2 h2 _ ib i2 p q
  | ⟨3, _⟩ => exact ld_slab x0 off o3 3 h3 _ ib i3 p q
  | ⟨4, _⟩ => exact ld_slab x0 off o4 4 h4 _ ib i4 p q
  | ⟨5, _⟩ => exact ld_slab x0 off o5 5 h5 _ ib i5 p q
  | ⟨6, _⟩ => exact ld_slab x0 off o6 6 h6 _ ib i6 p q
  | ⟨7, _⟩ => exact ld_slab x0 off o7 7 h7 _ ib i7 p q
  | ⟨8, _⟩ => exact ld_slab x0 off o8 8 h8 _ ib i8 p q
  | ⟨9, _⟩ => exact ld_slab x0 off o9 9 h9 _ ib i9 p q

end Cert.KernelIdeal.Chunk

end
-- ==== Proof.ChunkCases.lean ====
/-
  The sixteen time-chunks of the kernel body.  Chunk j (columns 256 j .. 256 j + 255 of the output block) stores a
  payload that the frame module spells as a composition of positional fragments of the body; each composition is,
  by unfolding, the one function Chunk.chunk of the first-layer weights and bias, the second-layer bias and row,
  and the ten slabs of the padded input block that start at columns 256 j + k, k = 0 .. 9 (piece j); and so, by the
  block lemma at offset 256 j, the store is the block function along its rectangle (store j).
-/
import proofs.«150225_j51960514347079_1_alg».proof.Proof.Gen.KernelIdeal.Frame
import proofs.«150225_j51960514347079_1_alg».proof.Proof.Block

noncomputable section

namespace Cert.KernelIdeal.Chunk

open Idealize.ShloMosaic Cert.KernelIdeal Cert.KernelIdeal.Gen

variable {F : FTy → Type} [FloatOps F]

/-- Chunk 15: the payload stored through the rectangle at column 3840. -/
theorem piece15 (x0 : Vec F S128x4224 .f32) (x1 : Vec F S32x10 .f32) (x2 : Vec F S32 .f32) (x3 : Vec F S1x32 .f32) (x4 : Vec F S1 .f32) :
    k0_pay1 (View.ld x2 r0_1) (k0_pay2 (View.ld x4 r0_3)) (k0_pay3 (View.ld x3 r0_2)) (k0_pay92 (View.ld x1 r0_0) (k0_pay91 (View.ld x1 r0_0) (k0_pay90 (F := F)) (View.ld x0 r0_169) (View.ld x0 r0_170) (View.ld x0 r0_171) (View.ld x0 r0_172) (View.ld x0 r0_173)) (View.ld x0 r0_174) (View.ld x0 r0_175) (View.ld x0 r0_176) (View.ld x0 r0_177) (View.ld x0 r0_178))
      = chunk (View.ld x1 r0_0) (View.ld x2 r0_1) (k0_pay2 (View.ld x4 r0_3)) (k0_pay3 (View.ld x3 r0_2)) (View.ld x0 r0_169) (View.ld x0 r0_170) (View.ld x0 r0_171) (View.ld x0 r0_172) (View.ld x0 r0_173) (View.ld x0 r0_174) (View.ld x0 r0_175) (View.ld x0 r0_176) (View.ld x0 r0_177) (View.ld x0 r0_178) := rfl

/-- Chunk 15's store, entry by entry, is the block function along its rectangle. -/
theorem store15 (x0 : Vec Ideal S128x4224 .f32) (x1 : Vec Ideal S32x10 .f32) (x2 : Vec Ideal S32 .f32) (x3 : Vec Ideal S1x32 .f32) (x4 : Vec Ideal S1 .f32) (x : r0_179.shape.Idx) :
    (k0_pay1 (View.ld x2 r0_1) (k0_pay2 (View.ld x4 r0_3)) (k0_pay3 (View.ld x3 r0_2)) (k0_pay92 (View.ld x1 r0_0) (k0_pay91 (View.ld x1 r0_0) (k0_pay90 (F := Ideal)) (View.ld x0 r0_169) (View.ld x0 r0_170) (View.ld x0 r0_171) (View.ld x0 r0_172) (View.ld x0 r0_173)) (View.ld x0 r0_174) (View.ld x0 r0_175) (View.ld x0 r0_176) (View.ld x0 r0_177) (View.ld x0 r0_178))) x
      = blockFn x0 (View.ld x1 r0_0) (View.ld x2 r0_1) (View.ld x3 r0_2) (View.ld x4 r0_3) (r0_179.emb x) :=
  (congrFun (piece15 (F := Ideal) x0 x1 x2 x3 x4) x).trans
    (chunk_block x0 (View.ld x1 r0_0) (View.ld x2 r0_1) (View.ld x3 r0_2) (View.ld x4 r0_3) 3840 3840 3841 3842 3843 3844 3845 3846 3847 3848 3849 rfl rfl rfl rfl rfl rfl rfl rfl rfl rfl inb_S128x4096_S128x256_0_3840 inb_S128x4224_S128x256_0_3840 inb_S128x4224_S128x256_0_3841 inb_S128x4224_S128x256_0_3842 inb_S128x4224_S128x256_0_3843 inb_S128x4224_S128x256_0_3844 inb_S128x4224_S128x256_0_3845 inb_S128x4224_S128x256_0_3846 inb_S128x4224_S128x256_0_3847 inb_S128x4224_S128x256_0_3848 inb_S128x4224_S128x256_0_3849 x)

/-- Chunk 14: the payload stored through the rectangle at column 3584. -/
theorem piece14 (x0 : Vec F S128x4224 .f32) (x1 : Vec F S32x10 .f32) (x2 : Vec F S32 .f32) (x3 : Vec F S1x32 .f32) (x4 : Vec F S1 .f32) :
    k0_pay89 (View.ld x1 r0_0) (View.ld x2 r0_1) (k0_pay2 (View.ld x4 r0_3)) (k0_pay3 (View.ld x3 r0_2)) (k0_pay87 (View.ld x1 r0_0) (k0_pay85 (View.ld x1 r0_0) (View.ld x0 r0_158)) (k0_pay86 (View.ld x1 r0_0) (View.ld x0 r0_159)) (View.ld x0 r0_160) (View.ld x0 r0_161) (View.ld x0 r0_162) (View.ld x0 r0_163)) (k0_pay88 (View.ld x1 r0_0) (View.ld x0 r0_164)) (View.ld x0 r0_165) (View.ld x0 r0_166) (View.ld x0 r0_167)
      = chunk (View.ld x1 r0_0) (View.ld x2 r0_1) (k0_pay2 (View.ld x4 r0_3)) (k0_pay3 (View.ld x3 r0_2)) (View.ld x0 r0_158) (View.ld x0 r0_159) (View.ld x0 r0_160) (View.ld x0 r0_161) (View.ld x0 r0_162) (View.ld x0 r0_163) (View.ld x0 r0_164) (View.ld x0 r0_165) (View.ld x0 r0_166) (View.ld x0 r0_167) := rfl

/-- Chunk 14's store, entry by entry, is the block function along its rectangle. -/
theorem store14 (x0 : Vec Ideal S128x4224 .f32) (x1 : Vec Ideal S32x10 .f32) (x2 : Vec Ideal S32 .f32) (x3 : Vec Ideal S1x32 .f32) (x4 : Vec Ideal S1 .f32) (x : r0_168.shape.Idx) :
    (k0_pay89 (View.ld x1 r0_0) (View.ld x2 r0_1) (k0_pay2 (View.ld x4 r0_3)) (k0_pay3 (View.ld x3 r0_2)) (k0_pay87 (View.ld x1 r0_0) (k0_pay85 (View.ld x1 r0_0) (View.ld x0 r0_158)) (k0_pay86 (View.ld x1 r0_0) (View.ld x0 r0_159)) (View.ld x0 r0_160) (View.ld x0 r0_161) (View.ld x0 r0_162) (View.ld x0 r0_163)) (k0_pay88 (View.ld x1 r0_0) (View.ld x0 r0_164)) (View.ld x0 r0_165) (View.ld x0 r0_166) (View.ld x0 r0_167)) x
      = blockFn x0 (View.ld x1 r0_0) (View.ld x2 r0_1) (View.ld x3 r0_2) (View.ld x4 r0_3) (r0_168.emb x) :=
  (congrFun (piece14 (F := Ideal) x0 x1 x2 x3 x4) x).trans
    (chunk_block x0 (View.ld x1 r0_0) (View.ld x2 r0_1) (View.ld x3 r0_2) (View.ld x4 r0_3) 3584 3584 3585 3586 3587 3588 3589 3590 3591 3592 3593 rfl rfl rfl rfl rfl rfl rfl rfl rfl rfl inb_S128x4096_S128x256_0_3584 inb_S128x4224_S128x256_0_3584 inb_S128x4224_S128x256_0_3585 inb_S128x4224_S128x256_0_3586 inb_S128x4224_S128x256_0_3587 inb_S128x4224_S128x256_0_3588 inb_S128x4224_S128x256_0_3589 inb_S128x4224_S128x256_0_3590 inb_S128x4224_S128x256_0_3591 inb_S128x4224_S128x256_0_3592 inb_S128x4224_S128x256_0_3593 x)

/-- Chunk 13: the payload stored through the rectangle at column 3328. -/
theorem piece13 (x0 : Vec F S128x4224 .f32) (x1 : Vec F S32x10 .f32) (x2 : Vec F S32 .f32) (x3 : Vec F S1x32 .f32) (x4 : Vec F S1 .f32) :
    k0_pay84 (View.ld x1 r0_0) (View.ld x2 r0_1) (k0_pay2 (View.ld x4 r0_3)) (k0_pay3 (View.ld x3 r0_2)) (k0_pay81 (View.ld x1 r0_0) (k0_pay78 (View.ld x1 r0_0) (View.ld x0 r0_147) (View.ld x0 r0_148) (View.ld x0 r0_149)) (k0_pay79 (View.ld x0 r0_150)) (k0_pay80 (View.ld x1 r0_0)) (View.ld x0 r0_151) (View.ld x0 r0_152) (View.ld x0 r0_153) (View.ld x0 r0_154)) (k0_pay82 (View.ld x0 r0_155)) (k0_pay83 (View.ld x1 r0_0)) (View.ld x0 r0_156)
      = chunk (View.ld x1 r0_0) (View.ld x2 r0_1) (k0_pay2 (View.ld x4 r0_3)) (k0_pay3 (View.ld x3 r0_2)) (View.ld x0 r0_147) (View.ld x0 r0_148) (View.ld x0 r0_149) (View.ld x0 r0_150) (View.ld x0 r0_151) (View.ld x0 r0_152) (View.ld x0 r0_153) (View.ld x0 r0_154) (View.ld x0 r0_155) (View.ld x0 r0_156) := rfl

/-- Chunk 13's store, entry by entry, is the block function along its rectangle. -/
theorem store13 (x0 : Vec Ideal S128x4224 .f32) (x1 : Vec Ideal S32x10 .f32) (x2 : Vec Ideal S32 .f32) (x3 : Vec Ideal S1x32 .f32) (x4 : Vec Ideal S1 .f32) (x : r0_157.shape.Idx) :
    (k0_pay84 (View.ld x1 r0_0) (View.ld x2 r0_1) (k0_pay2 (View.ld x4 r0_3)) (k0_pay3 (View.ld x3 r0_2)) (k0_pay81 (View.ld x1 r0_0) (k0_pay78 (View.ld x1 r0_0) (View.ld x0 r0_147) (View.ld x0 r0_148) (View.ld x0 r0_149)) (k0_pay79 (View.ld x0 r0_150)) (k0_pay80 (View.ld x1 r0_0)) (View.ld x0 r0_151) (View.ld x0 r0_152) (View.ld x0 r0_153) (View.ld x0 r0_154)) (k0_pay82 (View.ld x0 r0_155)) (k0_pay83 (View.ld x1 r0_0)) (View.ld x0 r0_156)) x
      = blockFn x0 (View.ld x1 r0_0) (View.ld x2 r0_1) (View.ld x3 r0_2) (View.ld x4 r0_3) (r0_157.emb x) :=
  (congrFun (piece13 (F := Ideal) x0 x1 x2 x3 x4) x).trans
    (chunk_block x0 (View.ld x1 r0_0) (View.ld x2 r0_1) (View.ld x3 r0_2) (View.ld x4 r0_3) 3328 3328 3329 3330 3331 3332 3333 3334 3335 3336 3337 rfl rfl rfl rfl rfl rfl rfl rfl rfl rfl inb_S128x4096_S128x256_0_3328 inb_S128x4224_S128x256_0_3328 inb_S128x4224_S128x256_0_3329 inb_S128x4224_S128x256_0_3330 inb_S128x4224_S128x256_0_3331 inb_S128x4224_S128x256_0_3332 inb_S128x4224_S128x256_0_3333 inb_S128x4224_S128x256_0_3334 inb_S128x4224_S128x256_0_3335 inb_S128x4224_S128x256_0_3336 inb_S128x4224_S128x256_0_3337 x)

/-- Chunk 12: the payload stored through the rectangle at column 3072. -/
theorem piece12 (x0 : Vec F S128x4224 .f32) (x1 : Vec F S32x10 .f32) (x2 : Vec F S32 .f32) (x3 : Vec F S1x32 .f32) (x4 : Vec F S1 .f32) :
    k0_pay77 (k0_pay2 (View.ld x4 r0_3)) (k0_pay76 (View.ld x1 r0_0) (View.ld x2 r0_1) (k0_pay3 (View.ld x3 r0_2)) (k0_pay73 (View.ld x1 r0_0) (k0_pay70 (F := F)) (k0_pay71 (View.ld x1 r0_0)) (k0_pay72 (View.ld x0 r0_136)) (View.ld x0 r0_137) (View.ld x0 r0_138) (View.ld x0 r0_139) (View.ld x0 r0_140)) (k0_pay74 (View.ld x1 r0_0)) (k0_pay75 (View.ld x0 r0_141)) (View.ld x0 r0_142) (View.ld x0 r0_143) (View.ld x0 r0_144) (View.ld x0 r0_145))
      = chunk (View.ld x1 r0_0) (View.ld x2 r0_1) (k0_pay2 (View.ld x4 r0_3)) (k0_pay3 (View.ld x3 r0_2)) (View.ld x0 r0_136) (View.ld x0 r0_137) (View.ld x0 r0_138) (View.ld x0 r0_139) (View.ld x0 r0_140) (View.ld x0 r0_141) (View.ld x0 r0_142) (View.ld x0 r0_143) (View.ld x0 r0_144) (View.ld x0 r0_145) := rfl

/-- Chunk 12's store, entry by entry, is the block function along its rectangle. -/
theorem store12 (x0 : Vec Ideal S128x4224 .f32) (x1 : Vec Ideal S32x10 .f32) (x2 : Vec Ideal S32 .f32) (x3 : Vec Ideal S1x32 .f32) (x4 : Vec Ideal S1 .f32) (x : r0_146.shape.Idx) :
    (k0_pay77 (k0_pay2 (View.ld x4 r0_3)) (k0_pay76 (View.ld x1 r0_0) (View.ld x2 r0_1) (k0_pay3 (View.ld x3 r0_2)) (k0_pay73 (View.ld x1 r0_0) (k0_pay70 (F := Ideal)) (k0_pay71 (View.ld x1 r0_0)) (k0_pay72 (View.ld x0 r0_136)) (View.ld x0 r0_137) (View.ld x0 r0_138) (View.ld x0 r0_139) (View.ld x0 r0_140)) (k0_pay74 (View.ld x1 r0_0)) (k0_pay75 (View.ld x0 r0_141)) (View.ld x0 r0_142) (View.ld x0 r0_143) (View.ld x0 r0_144) (View.ld x0 r0_145))) x
      = blockFn x0 (View.ld x1 r0_0) (View.ld x2 r0_1) (View.ld x3 r0_2) (View.ld x4 r0_3) (r0_146.emb x) :=
  (congrFun (piece12 (F := Ideal) x0 x1 x2 x3 x4) x).trans
    (chunk_block x0 (View.ld x1 r0_0) (View.ld x2 r0_1) (View.ld x3 r0_2) (View.ld x4 r0_3) 3072 3072 3073 3074 3075 3076 3077 3078 3079 3080 3081 rfl rfl rfl rfl rfl rfl rfl rfl rfl rfl inb_S128x4096_S128x256_0_3072 inb_S128x4224_S128x256_0_3072 inb_S128x4224_S128x256_0_3073 inb_S128x4224_S128x256_0_3074 inb_S128x4224_S128x256_0_3075 inb_S128x4224_S128x256_0_3076 inb_S128x4224_S128x256_0_3077 inb_S128x4224_S128x256_0_3078 inb_S128x4224_S128x256_0_3079 inb_S128x4224_S128x256_0_3080 inb_S128x4224_S128x256_0_3081 x)

/-- Chunk 11: the payload stored through the rectangle at column 2816. -/
theorem piece11 (x0 : Vec F S128x4224 .f32) (x1 : Vec F S32x10 .f32) (x2 : Vec F S32 .f32) (x3 : Vec F S1x32 .f32) (x4 : Vec F S1 .f32) :
    k0_pay69 (View.ld x1 r0_0) (View.ld x2 r0_1) (k0_pay2 (View.ld x4 r0_3)) (k0_pay3 (View.ld x3 r0_2)) (k0_pay66 (View.ld x1 r0_0) (k0_pay63 (View.ld x1 r0_0) (View.ld x0 r0_125) (View.ld x0 r0_126)) (k0_pay64 (View.ld x0 r0_127)) (k0_pay65 (View.ld x1 r0_0)) (View.ld x0 r0_128) (View.ld x0 r0_129) (View.ld x0 r0_130) (View.ld x0 r0_131)) (k0_pay67 (View.ld x0 r0_132)) (k0_pay68 (View.ld x1 r0_0)) (View.ld x0 r0_133) (View.ld x0 r0_134)
      = chunk (View.ld x1 r0_0) (View.ld x2 r0_1) (k0_pay2 (View.ld x4 r0_3)) (k0_pay3 (View.ld x3 r0_2)) (View.ld x0 r0_125) (View.ld x0 r0_126) (View.ld x0 r0_127) (View.ld x0 r0_128) (View.ld x0 r0_129) (View.ld x0 r0_130) (View.ld x0 r0_131) (View.ld x0 r0_132) (View.ld x0 r0_133) (View.ld x0 r0_134) := rfl

/-- Chunk 11's store, entry by entry, is the block function along its rectangle. -/
theorem store11 (x0 : Vec Ideal S128x4224 .f32) (x1 : Vec Ideal S32x10 .f32) (x2 : Vec Ideal S32 .f32) (x3 : Vec Ideal S1x32 .f32) (x4 : Vec Ideal S1 .f32) (x : r0_135.shape.Idx) :
    (k0_pay69 (View.ld x1 r0_0) (View.ld x2 r0_1) (k0_pay2 (View.ld x4 r0_3)) (k0_pay3 (View.ld x3 r0_2)) (k0_pay66 (View.ld x1 r0_0) (k0_pay63 (View.ld x1 r0_0) (View.ld x0 r0_125) (View.ld x0 r0_126)) (k0_pay64 (View.ld x0 r0_127)) (k0_pay65 (View.ld x1 r0_0)) (View.ld x0 r0_128) (View.ld x0 r0_129) (View.ld x0 r0_130) (View.ld x0 r0_131)) (k0_pay67 (View.ld x0 r0_132)) (k0_pay68 (View.ld x1 r0_0)) (View.ld x0 r0_133) (View.ld x0 r0_134)) x
      = blockFn x0 (View.ld x1 r0_0) (View.ld x2 r0_1) (View.ld x3 r0_2) (View.ld x4 r0_3) (r0_135.emb x) :=
  (congrFun (piece11 (F := Ideal) x0 x1 x2 x3 x4) x).trans
    (chunk_block x0 (View.ld x1 r0_0) (View.ld x2 r0_1) (View.ld x3 r0_2) (View.ld x4 r0_3) 2816 2816 2817 2818 2819 2820 2821 2822 2823 2824 2825 rfl rfl rfl rfl rfl rfl rfl rfl rfl rfl inb_S128x4096_S128x256_0_2816 inb_S128x4224_S128x256_0_2816 inb_S128x4224_S128x256_0_2817 inb_S128x4224_S128x256_0_2818 inb_S128x4224_S128x256_0_2819 inb_S128x4224_S128x256_0_2820 inb_S128x4224_S128x256_0_2821 inb_S128x4224_S128x256_0_2822 inb_S128x4224_S128x256_0_2823 inb_S128x4224_S128x256_0_2824 inb_S128x4224_S128x256_0_2825 x)

/-- Chunk 10: the payload stored through the rectangle at column 2560. -/
theorem piece10 (x0 : Vec F S128x4224 .f32) (x1 : Vec F S32x10 .f32) (x2 : Vec F S32 .f32) (x3 : Vec F S1x32 .f32) (x4 : Vec F S1 .f32) :
    k0_pay62 (View.ld x2 r0_1) (k0_pay2 (View.ld x4 r0_3)) (k0_pay3 (View.ld x3 r0_2)) (k0_pay59 (View.ld x1 r0_0) (k0_pay56 (View.ld x1 r0_0) (View.ld x0 r0_114) (View.ld x0 r0_115) (View.ld x0 r0_116) (View.ld x0 r0_117)) (k0_pay57 (View.ld x1 r0_0)) (k0_pay58 (View.ld x0 r0_118)) (View.ld x0 r0_119) (View.ld x0 r0_120) (View.ld x0 r0_121) (View.ld x0 r0_122)) (k0_pay60 (View.ld x1 r0_0)) (k0_pay61 (View.ld x0 r0_123))
      = chunk (View.ld x1 r0_0) (View.ld x2 r0_1) (k0_pay2 (View.ld x4 r0_3)) (k0_pay3 (View.ld x3 r0_2)) (View.ld x0 r0_114) (View.ld x0 r0_115) (View.ld x0 r0_116) (View.ld x0 r0_117) (View.ld x0 r0_118) (View.ld x0 r0_119) (View.ld x0 r0_120) (View.ld x0 r0_121) (View.ld x0 r0_122) (View.ld x0 r0_123) := rfl

/-- Chunk 10's store, entry by entry, is the block function along its rectangle. -/
theorem store10 (x0 : Vec Ideal S128x4224 .f32) (x1 : Vec Ideal S32x10 .f32) (x2 : Vec Ideal S32 .f32) (x3 : Vec Ideal S1x32 .f32) (x4 : Vec Ideal S1 .f32) (x : r0_124.shape.Idx) :
    (k0_pay62 (View.ld x2 r0_1) (k0_pay2 (View.ld x4 r0_3)) (k0_pay3 (View.ld x3 r0_2)) (k0_pay59 (View.ld x1 r0_0) (k0_pay56 (View.ld x1 r0_0) (View.ld x0 r0_114) (View.ld x0 r0_115) (View.ld x0 r0_116) (View.ld x0 r0_117)) (k0_pay57 (View.ld x1 r0_0)) (k0_pay58 (View.ld x0 r0_118)) (View.ld x0 r0_119) (View.ld x0 r0_120) (View.ld x0 r0_121) (View.ld x0 r0_122)) (k0_pay60 (View.ld x1 r0_0)) (k0_pay61 (View.ld x0 r0_123))) x
      = blockFn x0 (View.ld x1 r0_0) (View.ld x2 r0_1) (View.ld x3 r0_2) (View.ld x4 r0_3) (r0_124.emb x) :=
  (congrFun (piece10 (F := Ideal) x0 x1 x2 x3 x4) x).trans
    (chunk_block x0 (View.ld x1 r0_0) (View.ld x2 r0_1) (View.ld x3 r0_2) (View.ld x4 r0_3) 2560 2560 2561 2562 2563 2564 2565 2566 2567 2568 2569 rfl rfl rfl rfl rfl rfl rfl rfl rfl rfl inb_S128x4096_S128x256_0_2560 inb_S128x4224_S128x256_0_2560 inb_S128x4224_S128x256_0_2561 inb_S128x4224_S128x256_0_2562 inb_S128x4224_S128x256_0_2563 inb_S128x4224_S128x256_0_2564 inb_S128x4224_S128x256_0_2565 inb_S128x4224_S128x256_0_2566 inb_S128x4224_S128x256_0_2567 inb_S128x4224_S128x256_0_2568 inb_S128x4224_S128x256_0_2569 x)

/-- Chunk 9: the payload stored through the rectangle at column 2304. -/
theorem piece9 (x0 : Vec F S128x4224 .f32) (x1 : Vec F S32x10 .f32) (x2 : Vec F S32 .f32) (x3 : Vec F S1x32 .f32) (x4 : Vec F S1 .f32) :
    k0_pay55 (View.ld x1 r0_0) (View.ld x2 r0_1) (k0_pay2 (View.ld x4 r0_3)) (k0_pay3 (View.ld x3 r0_2)) (k0_pay52 (View.ld x1 r0_0) (k0_pay49 (View.ld x1 r0_0) (View.ld x0 r0_103)) (k0_pay50 (View.ld x0 r0_104)) (k0_pay51 (View.ld x1 r0_0)) (View.ld x0 r0_105) (View.ld x0 r0_106) (View.ld x0 r0_107) (View.ld x0 r0_108)) (k0_pay53 (View.ld x0 r0_109)) (k0_pay54 (View.ld x1 r0_0)) (View.ld x0 r0_110) (View.ld x0 r0_111) (View.ld x0 r0_112)
      = chunk (View.ld x1 r0_0) (View.ld x2 r0_1) (k0_pay2 (View.ld x4 r0_3)) (k0_pay3 (View.ld x3 r0_2)) (View.ld x0 r0_103) (View.ld x0 r0_104) (View.ld x0 r0_105) (View.ld x0 r0_106) (View.ld x0 r0_107) (View.ld x0 r0_108) (View.ld x0 r0_109) (View.ld x0 r0_110) (View.ld x0 r0_111) (View.ld x0 r0_112) := rfl

/-- Chunk 9's store, entry by entry, is the block function along its rectangle. -/
theorem store9 (x0 : Vec Ideal S128x4224 .f32) (x1 : Vec Ideal S32x10 .f32) (x2 : Vec Ideal S32 .f32) (x3 : Vec Ideal S1x32 .f32) (x4 : Vec Ideal S1 .f32) (x : r0_113.shape.Idx) :
    (k0_pay55 (View.ld x1 r0_0) (View.ld x2 r0_1) (k0_pay2 (View.ld x4 r0_3)) (k0_pay3 (View.ld x3 r0_2)) (k0_pay52 (View.ld x1 r0_0) (k0_pay49 (View.ld x1 r0_0) (View.ld x0 r0_103)) (k0_pay50 (View.ld x0 r0_104)) (k0_pay51 (View.ld x1 r0_0)) (View.ld x0 r0_105) (View.ld x0 r0_106) (View.ld x0 r0_107) (View.ld x0 r0_108)) (k0_pay53 (View.ld x0 r0_109)) (k0_pay54 (View.ld x1 r0_0)) (View.ld x0 r0_110) (View.ld x0 r0_111) (View.ld x0 r0_112)) x
      = blockFn x0 (View.ld x1 r0_0) (View.ld x2 r0_1) (View.ld x3 r0_2) (View.ld x4 r0_3) (r0_113.emb x) :=
  (congrFun (piece9 (F := Ideal) x0 x1 x2 x3 x4) x).trans
    (chunk_block x0 (View.ld x1 r0_0) (View.ld x2 r0_1) (View.ld x3 r0_2) (View.ld x4 r0_3) 2304 2304 2305 2306 2307 2308 2309 2310 2311 2312 2313 rfl rfl rfl rfl rfl rfl rfl rfl rfl rfl inb_S128x4096_S128x256_0_2304 inb_S128x4224_S128x256_0_2304 inb_S128x4224_S128x256_0_2305 inb_S128x4224_S128x256_0_2306 inb_S128x4224_S128x256_0_2307 inb_S128x4224_S128x256_0_2308 inb_S128x4224_S128x256_0_2309 inb_S128x4224_S128x256_0_2310 inb_S128x4224_S128x256_0_2311 inb_S128x4224_S128x256_0_2312 inb_S128x4224_S128x256_0_2313 x)

/-- Chunk 8: the payload stored through the rectangle at column 2048. -/
theorem piece8 (x0 : Vec F S128x4224 .f32) (x1 : Vec F S32x10 .f32) (x2 : Vec F S32 .f32) (x3 : Vec F S1x32 .f32) (x4 : Vec F S1 .f32) :
    k0_pay48 (View.ld x1 r0_0) (View.ld x2 r0_1) (k0_pay2 (View.ld x4 r0_3)) (k0_pay3 (View.ld x3 r0_2)) (k0_pay45 (View.ld x1 r0_0) (k0_pay42 (View.ld x1 r0_0) (View.ld x0 r0_92) (View.ld x0 r0_93) (View.ld x0 r0_94)) (k0_pay43 (View.ld x0 r0_95)) (k0_pay44 (View.ld x1 r0_0)) (View.ld x0 r0_96) (View.ld x0 r0_97) (View.ld x0 r0_98) (View.ld x0 r0_99)) (k0_pay46 (View.ld x0 r0_100)) (k0_pay47 (View.ld x1 r0_0)) (View.ld x0 r0_101)
      = chunk (View.ld x1 r0_0) (View.ld x2 r0_1) (k0_pay2 (View.ld x4 r0_3)) (k0_pay3 (View.ld x3 r0_2)) (View.ld x0 r0_92) (View.ld x0 r0_93) (View.ld x0 r0_94) (View.ld x0 r0_95) (View.ld x0 r0_96) (View.ld x0 r0_97) (View.ld x0 r0_98) (View.ld x0 r0_99) (View.ld x0 r0_100) (View.ld x0 r0_101) := rfl

/-- Chunk 8's store, entry by entry, is the block function along its rectangle. -/
theorem store8 (x0 : Vec Ideal S128x4224 .f32) (x1 : Vec Ideal S32x10 .f32) (x2 : Vec Ideal S32 .f32) (x3 : Vec Ideal S1x32 .f32) (x4 : Vec Ideal S1 .f32) (x : r0_102.shape.Idx) :
    (k0_pay48 (View.ld x1 r0_0) (View.ld x2 r0_1) (k0_pay2 (View.ld x4 r0_3)) (k0_pay3 (View.ld x3 r0_2)) (k0_pay45 (View.ld x1 r0_0) (k0_pay42 (View.ld x1 r0_0) (View.ld x0 r0_92) (View.ld x0 r0_93) (View.ld x0 r0_94)) (k0_pay43 (View.ld x0 r0_95)) (k0_pay44 (View.ld x1 r0_0)) (View.ld x0 r0_96) (View.ld x0 r0_97) (View.ld x0 r0_98) (View.ld x0 r0_99)) (k0_pay46 (View.ld x0 r0_100)) (k0_pay47 (View.ld x1 r0_0)) (View.ld x0 r0_101)) x
      = blockFn x0 (View.ld x1 r0_0) (View.ld x2 r0_1) (View.ld x3 r0_2) (View.ld x4 r0_3) (r0_102.emb x) :=
  (congrFun (piece8 (F := Ideal) x0 x1 x2 x3 x4) x).trans
    (chunk_block x0 (View.ld x1 r0_0) (View.ld x2 r0_1) (View.ld x3 r0_2) (View.ld x4 r0_3) 2048 2048 2049 2050 2051 2052 2053 2054 2055 2056 2057 rfl rfl rfl rfl rfl rfl rfl rfl rfl rfl inb_S128x4096_S128x256_0_2048 inb_S128x4224_S128x256_0_2048 inb_S128x4224_S128x256_0_2049 inb_S128x4224_S128x256_0_2050 inb_S128x4224_S128x256_0_2051 inb_S128x4224_S128x256_0_2052 inb_S128x4224_S128x256_0_2053 inb_S128x4224_S128x256_0_2054 inb_S128x4224_S128x256_0_2055 inb_S128x4224_S128x256_0_2056 inb_S128x4224_S128x256_0_2057 x)

/-- Chunk 7: the payload stored through the rectangle at column 1792. -/
theorem piece7 (x0 : Vec F S128x4224 .f32) (x1 : Vec F S32x10 .f32) (x2 : Vec F S32 .f32) (x3 : Vec F S1x32 .f32) (x4 : Vec F S1 .f32) :
    k0_pay41 (k0_pay2 (View.ld x4 r0_3)) (k0_pay3 (View.ld x3 r0_2)) (k0_pay40 (View.ld x1 r0_0) (View.ld x2 r0_1) (k0_pay38 (View.ld x1 r0_0) (k0_pay36 (F := F)) (k0_pay37 (View.ld x0 r0_81)) (View.ld x0 r0_82) (View.ld x0 r0_83) (View.ld x0 r0_84) (View.ld x0 r0_85)) (k0_pay39 (View.ld x0 r0_86)) (View.ld x0 r0_87) (View.ld x0 r0_88) (View.ld x0 r0_89) (View.ld x0 r0_90)) (Scalar.ofBits .f32 0x00000000#32)
      = chunk (View.ld x1 r0_0) (View.ld x2 r0_1) (k0_pay2 (View.ld x4 r0_3)) (k0_pay3 (View.ld x3 r0_2)) (View.ld x0 r0_81) (View.ld x0 r0_82) (View.ld x0 r0_83) (View.ld x0 r0_84) (View.ld x0 r0_85) (View.ld x0 r0_86) (View.ld x0 r0_87) (View.ld x0 r0_88) (View.ld x0 r0_89) (View.ld x0 r0_90) := rfl

/-- Chunk 7's store, entry by entry, is the block function along its rectangle. -/
theorem store7 (x0 : Vec Ideal S128x4224 .f32) (x1 : Vec Ideal S32x10 .f32) (x2 : Vec Ideal S32 .f32) (x3 : Vec Ideal S1x32 .f32) (x4 : Vec Ideal S1 .f32) (x : r0_91.shape.Idx) :
    (k0_pay41 (k0_pay2 (View.ld x4 r0_3)) (k0_pay3 (View.ld x3 r0_2)) (k0_pay40 (View.ld x1 r0_0) (View.ld x2 r0_1) (k0_pay38 (View.ld x1 r0_0) (k0_pay36 (F := Ideal)) (k0_pay37 (View.ld x0 r0_81)) (View.ld x0 r0_82) (View.ld x0 r0_83) (View.ld x0 r0_84) (View.ld x0 r0_85)) (k0_pay39 (View.ld x0 r0_86)) (View.ld x0 r0_87) (View.ld x0 r0_88) (View.ld x0 r0_89) (View.ld x0 r0_90)) (Scalar.ofBits .f32 0x00000000#32)) x
      = blockFn x0 (View.ld x1 r0_0) (View.ld x2 r0_1) (View.ld x3 r0_2) (View.ld x4 r0_3) (r0_91.emb x) :=
  (congrFun (piece7 (F := Ideal) x0 x1 x2 x3 x4) x).trans
    (chunk_block x0 (View.ld x1 r0_0) (View.ld x2 r0_1) (View.ld x3 r0_2) (View.ld x4 r0_3) 1792 1792 1793 1794 1795 1796 1797 1798 1799 1800 1801 rfl rfl rfl rfl rfl rfl rfl rfl rfl rfl inb_S128x4096_S128x256_0_1792 inb_S128x4224_S128x256_0_1792 inb_S128x4224_S128x256_0_1793 inb_S128x4224_S128x256_0_1794 inb_S128x4224_S128x256_0_1795 inb_S128x4224_S128x256_0_1796 inb_S128x4224_S128x256_0_1797 inb_S128x4224_S128x256_0_1798 inb_S128x4224_S128x256_0_1799 inb_S128x4224_S128x256_0_1800 inb_S128x4224_S128x256_0_1801 x)

/-- Chunk 6: the payload stored through the rectangle at column 1536. -/
theorem piece6 (x0 : Vec F S128x4224 .f32) (x1 : Vec F S32x10 .f32) (x2 : Vec F S32 .f32) (x3 : Vec F S1x32 .f32) (x4 : Vec F S1 .f32) :
    k0_pay35 (View.ld x1 r0_0) (View.ld x2 r0_1) (k0_pay2 (View.ld x4 r0_3)) (k0_pay3 (View.ld x3 r0_2)) (k0_pay34 (View.ld x1 r0_0) (k0_pay33 (View.ld x1 r0_0) (View.ld x0 r0_70) (View.ld x0 r0_71)) (View.ld x0 r0_72) (View.ld x0 r0_73) (View.ld x0 r0_74) (View.ld x0 r0_75) (View.ld x0 r0_76)) (View.ld x0 r0_77) (View.ld x0 r0_78) (View.ld x0 r0_79)
      = chunk (View.ld x1 r0_0) (View.ld x2 r0_1) (k0_pay2 (View.ld x4 r0_3)) (k0_pay3 (View.ld x3 r0_2)) (View.ld x0 r0_70) (View.ld x0 r0_71) (View.ld x0 r0_72) (View.ld x0 r0_73) (View.ld x0 r0_74) (View.ld x0 r0_75) (View.ld x0 r0_76) (View.ld x0 r0_77) (View.ld x0 r0_78) (View.ld x0 r0_79) := rfl

/-- Chunk 6's store, entry by entry, is the block function along its rectangle. -/
theorem store6 (x0 : Vec Ideal S128x4224 .f32) (x1 : Vec Ideal S32x10 .f32) (x2 : Vec Ideal S32 .f32) (x3 : Vec Ideal S1x32 .f32) (x4 : Vec Ideal S1 .f32) (x : r0_80.shape.Idx) :
    (k0_pay35 (View.ld x1 r0_0) (View.ld x2 r0_1) (k0_pay2 (View.ld x4 r0_3)) (k0_pay3 (View.ld x3 r0_2)) (k0_pay34 (View.ld x1 r0_0) (k0_pay33 (View.ld x1 r0_0) (View.ld x0 r0_70) (View.ld x0 r0_71)) (View.ld x0 r0_72) (View.ld x0 r0_73) (View.ld x0 r0_74) (View.ld x0 r0_75) (View.ld x0 r0_76)) (View.ld x0 r0_77) (View.ld x0 r0_78) (View.ld x0 r0_79)) x
      = blockFn x0 (View.ld x1 r0_0) (View.ld x2 r0_1) (View.ld x3 r0_2) (View.ld x4 r0_3) (r0_80.emb x) :=
  (congrFun (piece6 (F := Ideal) x0 x1 x2 x3 x4) x).trans
    (chunk_block x0 (View.ld x1 r0_0) (View.ld x2 r0_1) (View.ld x3 r0_2) (View.ld x4 r0_3) 1536 1536 1537 1538 1539 1540 1541 1542 1543 1544 1545 rfl rfl rfl rfl rfl rfl rfl rfl rfl rfl inb_S128x4096_S128x256_0_1536 inb_S128x4224_S128x256_0_1536 inb_S128x4224_S128x256_0_1537 inb_S128x4224_S128x256_0_1538 inb_S128x4224_S128x256_0_1539 inb_S128x4224_S128x256_0_1540 inb_S128x4224_S128x256_0_1541 inb_S128x4224_S128x256_0_1542 inb_S128x4224_S128x256_0_1543 inb_S128x4224_S128x256_0_1544 inb_S128x4224_S128x256_0_1545 x)

/-- Chunk 5: the payload stored through the rectangle at column 1280. -/
theorem piece5 (x0 : Vec F S128x4224 .f32) (x1 : Vec F S32x10 .f32) (x2 : Vec F S32 .f32) (x3 : Vec F S1x32 .f32) (x4 : Vec F S1 .f32) :
    k0_pay32 (View.ld x1 r0_0) (View.ld x2 r0_1) (k0_pay2 (View.ld x4 r0_3)) (k0_pay3 (View.ld x3 r0_2)) (k0_pay31 (View.ld x1 r0_0) (k0_pay30 (View.ld x1 r0_0) (View.ld x0 r0_59) (View.ld x0 r0_60) (View.ld x0 r0_61) (View.ld x0 r0_62)) (View.ld x0 r0_63) (View.ld x0 r0_64) (View.ld x0 r0_65) (View.ld x0 r0_66) (View.ld x0 r0_67)) (View.ld x0 r0_68)
      = chunk (View.ld x1 r0_0) (View.ld x2 r0_1) (k0_pay2 (View.ld x4 r0_3)) (k0_pay3 (View.ld x3 r0_2)) (View.ld x0 r0_59) (View.ld x0 r0_60) (View.ld x0 r0_61) (View.ld x0 r0_62) (View.ld x0 r0_63) (View.ld x0 r0_64) (View.ld x0 r0_65) (View.ld x0 r0_66) (View.ld x0 r0_67) (View.ld x0 r0_68) := rfl

/-- Chunk 5's store, entry by entry, is the block function along its rectangle. -/
theorem store5 (x0 : Vec Ideal S128x4224 .f32) (x1 : Vec Ideal S32x10 .f32) (x2 : Vec Ideal S32 .f32) (x3 : Vec Ideal S1x32 .f32) (x4 : Vec Ideal S1 .f32) (x : r0_69.shape.Idx) :
    (k0_pay32 (View.ld x1 r0_0) (View.ld x2 r0_1) (k0_pay2 (View.ld x4 r0_3)) (k0_pay3 (View.ld x3 r0_2)) (k0_pay31 (View.ld x1 r0_0) (k0_pay30 (View.ld x1 r0_0) (View.ld x0 r0_59) (View.ld x0 r0_60) (View.ld x0 r0_61) (View.ld x0 r0_62)) (View.ld x0 r0_63) (View.ld x0 r0_64) (View.ld x0 r0_65) (View.ld x0 r0_66) (View.ld x0 r0_67)) (View.ld x0 r0_68)) x
      = blockFn x0 (View.ld x1 r0_0) (View.ld x2 r0_1) (View.ld x3 r0_2) (View.ld x4 r0_3) (r0_69.emb x) :=
  (congrFun (piece5 (F := Ideal) x0 x1 x2 x3 x4) x).trans
    (chunk_block x0 (View.ld x1 r0_0) (View.ld x2 r0_1) (View.ld x3 r0_2) (View.ld x4 r0_3) 1280 1280 1281 1282 1283 1284 1285 1286 1287 1288 1289 rfl rfl rfl rfl rfl rfl rfl rfl rfl rfl inb_S128x4096_S128x256_0_1280 inb_S128x4224_S128x256_0_1280 inb_S128x4224_S128x256_0_1281 inb_S128x4224_S128x256_0_1282 inb_S128x4224_S128x256_0_1283 inb_S128x4224_S128x256_0_1284 inb_S128x4224_S128x256_0_1285 inb_S128x4224_S128x256_0_1286 inb_S128x4224_S128x256_0_1287 inb_S128x4224_S128x256_0_1288 inb_S128x4224_S128x256_0_1289 x)

/-- Chunk 4: the payload stored through the rectangle at column 1024. -/
theorem piece4 (x0 : Vec F S128x4224 .f32) (x1 : Vec F S32x10 .f32) (x2 : Vec F S32 .f32) (x3 : Vec F S1x32 .f32) (x4 : Vec F S1 .f32) :
    k0_pay29 (k0_pay28 (View.ld x1 r0_0) (View.ld x2 r0_1) (k0_pay2 (View.ld x4 r0_3)) (k0_pay3 (View.ld x3 r0_2)) (k0_pay27 (View.ld x1 r0_0) (k0_pay26 (View.ld x1 r0_0) (View.ld x0 r0_48)) (View.ld x0 r0_49) (View.ld x0 r0_50) (View.ld x0 r0_51) (View.ld x0 r0_52) (View.ld x0 r0_53)) (View.ld x0 r0_54) (View.ld x0 r0_55) (View.ld x0 r0_56) (View.ld x0 r0_57))
      = chunk (View.ld x1 r0_0) (View.ld x2 r0_1) (k0_pay2 (View.ld x4 r0_3)) (k0_pay3 (View.ld x3 r0_2)) (View.ld x0 r0_48) (View.ld x0 r0_49) (View.ld x0 r0_50) (View.ld x0 r0_51) (View.ld x0 r0_52) (View.ld x0 r0_53) (View.ld x0 r0_54) (View.ld x0 r0_55) (View.ld x0 r0_56) (View.ld x0 r0_57) := rfl

/-- Chunk 4's store, entry by entry, is the block function along its rectangle. -/
theorem store4 (x0 : Vec Ideal S128x4224 .f32) (x1 : Vec Ideal S32x10 .f32) (x2 : Vec Ideal S32 .f32) (x3 : Vec Ideal S1x32 .f32) (x4 : Vec Ideal S1 .f32) (x : r0_58.shape.Idx) :
    (k0_pay29 (k0_pay28 (View.ld x1 r0_0) (View.ld x2 r0_1) (k0_pay2 (View.ld x4 r0_3)) (k0_pay3 (View.ld x3 r0_2)) (k0_pay27 (View.ld x1 r0_0) (k0_pay26 (View.ld x1 r0_0) (View.ld x0 r0_48)) (View.ld x0 r0_49) (View.ld x0 r0_50) (View.ld x0 r0_51) (View.ld x0 r0_52) (View.ld x0 r0_53)) (View.ld x0 r0_54) (View.ld x0 r0_55) (View.ld x0 r0_56) (View.ld x0 r0_57))) x
      = blockFn x0 (View.ld x1 r0_0) (View.ld x2 r0_1) (View.ld x3 r0_2) (View.ld x4 r0_3) (r0_58.emb x) :=
  (congrFun (piece4 (F := Ideal) x0 x1 x2 x3 x4) x).trans
    (chunk_block x0 (View.ld x1 r0_0) (View.ld x2 r0_1) (View.ld x3 r0_2) (View.ld x4 r0_3) 1024 1024 1025 1026 1027 1028 1029 1030 1031 1032 1033 rfl rfl rfl rfl rfl rfl rfl rfl rfl rfl inb_S128x4096_S128x256_0_1024 inb_S128x4224_S128x256_0_1024 inb_S128x4224_S128x256_0_1025 inb_S128x4224_S128x256_0_1026 inb_S128x4224_S128x256_0_1027 inb_S128x4224_S128x256_0_1028 inb_S128x4224_S128x256_0_1029 inb_S128x4224_S128x256_0_1030 inb_S128x4224_S128x256_0_1031 inb_S128x4224_S128x256_0_1032 inb_S128x4224_S128x256_0_1033 x)

/-- Chunk 3: the payload stored through the rectangle at column 768. -/
theorem piece3 (x0 : Vec F S128x4224 .f32) (x1 : Vec F S32x10 .f32) (x2 : Vec F S32 .f32) (x3 : Vec F S1x32 .f32) (x4 : Vec F S1 .f32) :
    k0_pay25 (View.ld x1 r0_0) (View.ld x2 r0_1) (k0_pay2 (View.ld x4 r0_3)) (k0_pay3 (View.ld x3 r0_2)) (k0_pay24 (View.ld x1 r0_0) (k0_pay23 (View.ld x1 r0_0) (View.ld x0 r0_37) (View.ld x0 r0_38) (View.ld x0 r0_39)) (View.ld x0 r0_40) (View.ld x0 r0_41) (View.ld x0 r0_42) (View.ld x0 r0_43) (View.ld x0 r0_44)) (View.ld x0 r0_45) (View.ld x0 r0_46)
      = chunk (View.ld x1 r0_0) (View.ld x2 r0_1) (k0_pay2 (View.ld x4 r0_3)) (k0_pay3 (View.ld x3 r0_2)) (View.ld x0 r0_37) (View.ld x0 r0_38) (View.ld x0 r0_39) (View.ld x0 r0_40) (View.ld x0 r0_41) (View.ld x0 r0_42) (View.ld x0 r0_43) (View.ld x0 r0_44) (View.ld x0 r0_45) (View.ld x0 r0_46) := rfl

/-- Chunk 3's store, entry by entry, is the block function along its rectangle. -/
theorem store3 (x0 : Vec Ideal S128x4224 .f32) (x1 : Vec Ideal S32x10 .f32) (x2 : Vec Ideal S32 .f32) (x3 : Vec Ideal S1x32 .f32) (x4 : Vec Ideal S1 .f32) (x : r0_47.shape.Idx) :
    (k0_pay25 (View.ld x1 r0_0) (View.ld x2 r0_1) (k0_pay2 (View.ld x4 r0_3)) (k0_pay3 (View.ld x3 r0_2)) (k0_pay24 (View.ld x1 r0_0) (k0_pay23 (View.ld x1 r0_0) (View.ld x0 r0_37) (View.ld x0 r0_38) (View.ld x0 r0_39)) (View.ld x0 r0_40) (View.ld x0 r0_41) (View.ld x0 r0_42) (View.ld x0 r0_43) (View.ld x0 r0_44)) (View.ld x0 r0_45) (View.ld x0 r0_46)) x
      = blockFn x0 (View.ld x1 r0_0) (View.ld x2 r0_1) (View.ld x3 r0_2) (View.ld x4 r0_3) (r0_47.emb x) :=
  (congrFun (piece3 (F := Ideal) x0 x1 x2 x3 x4) x).trans
    (chunk_block x0 (View.ld x1 r0_0) (View.ld x2 r0_1) (View.ld x3 r0_2) (View.ld x4 r0_3) 768 768 769 770 771 772 773 774 775 776 777 rfl rfl rfl rfl rfl rfl rfl rfl rfl rfl inb_S128x4096_S128x256_0_768 inb_S128x4224_S128x256_0_768 inb_S128x4224_S128x256_0_769 inb_S128x4224_S128x256_0_770 inb_S128x4224_S128x256_0_771 inb_S128x4224_S128x256_0_772 inb_S128x4224_S128x256_0_773 inb_S128x4224_S128x256_0_774 inb_S128x4224_S128x256_0_775 inb_S128x4224_S128x256_0_776 inb_S128x4224_S128x256_0_777 x)

/-- Chunk 2: the payload stored through the rectangle at column 512. -/
theorem piece2 (x0 : Vec F S128x4224 .f32) (x1 : Vec F S32x10 .f32) (x2 : Vec F S32 .f32) (x3 : Vec F S1x32 .f32) (x4 : Vec F S1 .f32) :
    k0_pay22 (View.ld x2 r0_1) (k0_pay2 (View.ld x4 r0_3)) (k0_pay3 (View.ld x3 r0_2)) (k0_pay20 (View.ld x1 r0_0) (k0_pay18 (View.ld x1 r0_0) (Scalar.ofBits .f32 0x00000000#32) (View.ld x0 r0_26) (View.ld x0 r0_27) (View.ld x0 r0_28) (View.ld x0 r0_29)) (k0_pay19 (View.ld x1 r0_0) (View.ld x0 r0_30)) (View.ld x0 r0_31) (View.ld x0 r0_32) (View.ld x0 r0_33) (View.ld x0 r0_34)) (k0_pay21 (View.ld x1 r0_0) (View.ld x0 r0_35))
      = chunk (View.ld x1 r0_0) (View.ld x2 r0_1) (k0_pay2 (View.ld x4 r0_3)) (k0_pay3 (View.ld x3 r0_2)) (View.ld x0 r0_26) (View.ld x0 r0_27) (View.ld x0 r0_28) (View.ld x0 r0_29) (View.ld x0 r0_30) (View.ld x0 r0_31) (View.ld x0 r0_32) (View.ld x0 r0_33) (View.ld x0 r0_34) (View.ld x0 r0_35) := rfl

/-- Chunk 2's store, entry by entry, is the block function along its rectangle. -/
theorem store2 (x0 : Vec Ideal S128x4224 .f32) (x1 : Vec Ideal S32x10 .f32) (x2 : Vec Ideal S32 .f32) (x3 : Vec Ideal S1x32 .f32) (x4 : Vec Ideal S1 .f32) (x : r0_36.shape.Idx) :
    (k0_pay22 (View.ld x2 r0_1) (k0_pay2 (View.ld x4 r0_3)) (k0_pay3 (View.ld x3 r0_2)) (k0_pay20 (View.ld x1 r0_0) (k0_pay18 (View.ld x1 r0_0) (Scalar.ofBits .f32 0x00000000#32) (View.ld x0 r0_26) (View.ld x0 r0_27) (View.ld x0 r0_28) (View.ld x0 r0_29)) (k0_pay19 (View.ld x1 r0_0) (View.ld x0 r0_30)) (View.ld x0 r0_31) (View.ld x0 r0_32) (View.ld x0 r0_33) (View.ld x0 r0_34)) (k0_pay21 (View.ld x1 r0_0) (View.ld x0 r0_35))) x
      = blockFn x0 (View.ld x1 r0_0) (View.ld x2 r0_1) (View.ld x3 r0_2) (View.ld x4 r0_3) (r0_36.emb x) :=
  (congrFun (piece2 (F := Ideal) x0 x1 x2 x3 x4) x).trans
    (chunk_block x0 (View.ld x1 r0_0) (View.ld x2 r0_1) (View.ld x3 r0_2) (View.ld x4 r0_3) 512 512 513 514 515 516 517 518 519 520 521 rfl rfl rfl rfl rfl rfl rfl rfl rfl rfl inb_S128x4096_S128x256_0_512 inb_S128x4224_S128x256_0_512 inb_S128x4224_S128x256_0_513 inb_S128x4224_S128x256_0_514 inb_S128x4224_S128x256_0_515 inb_S128x4224_S128x256_0_516 inb_S128x4224_S128x256_0_517 inb_S128x4224_S128x256_0_518 inb_S128x4224_S128x256_0_519 inb_S128x4224_S128x256_0_520 inb_S128x4224_S128x256_0_521 x)

/-- Chunk 1: the payload stored through the rectangle at column 256. -/
theorem piece1 (x0 : Vec F S128x4224 .f32) (x1 : Vec F S32x10 .f32) (x2 : Vec F S32 .f32) (x3 : Vec F S1x32 .f32) (x4 : Vec F S1 .f32) :
    k0_pay17 (View.ld x1 r0_0) (View.ld x2 r0_1) (k0_pay2 (View.ld x4 r0_3)) (k0_pay3 (View.ld x3 r0_2)) (k0_pay14 (View.ld x1 r0_0) (k0_pay11 (View.ld x1 r0_0) (View.ld x0 r0_15)) (k0_pay12 (View.ld x0 r0_16)) (k0_pay13 (View.ld x1 r0_0)) (View.ld x0 r0_17) (View.ld x0 r0_18) (View.ld x0 r0_19) (View.ld x0 r0_20)) (k0_pay15 (View.ld x0 r0_21)) (k0_pay16 (View.ld x1 r0_0)) (View.ld x0 r0_22) (View.ld x0 r0_23) (View.ld x0 r0_24)
      = chunk (View.ld x1 r0_0) (View.ld x2 r0_1) (k0_pay2 (View.ld x4 r0_3)) (k0_pay3 (View.ld x3 r0_2)) (View.ld x0 r0_15) (View.ld x0 r0_16) (View.ld x0 r0_17) (View.ld x0 r0_18) (View.ld x0 r0_19) (View.ld x0 r0_20) (View.ld x0 r0_21) (View.ld x0 r0_22) (View.ld x0 r0_23) (View.ld x0 r0_24) := rfl

/-- Chunk 1's store, entry by entry, is the block function along its rectangle. -/
theorem store1 (x0 : Vec Ideal S128x4224 .f32) (x1 : Vec Ideal S32x10 .f32) (x2 : Vec Ideal S32 .f32) (x3 : Vec Ideal S1x32 .f32) (x4 : Vec Ideal S1 .f32) (x : r0_25.shape.Idx) :
    (k0_pay17 (View.ld x1 r0_0) (View.ld x2 r0_1) (k0_pay2 (View.ld x4 r0_3)) (k0_pay3 (View.ld x3 r0_2)) (k0_pay14 (View.ld x1 r0_0) (k0_pay11 (View.ld x1 r0_0) (View.ld x0 r0_15)) (k0_pay12 (View.ld x0 r0_16)) (k0_pay13 (View.ld x1 r0_0)) (View.ld x0 r0_17) (View.ld x0 r0_18) (View.ld x0 r0_19) (View.ld x0 r0_20)) (k0_pay15 (View.ld x0 r0_21)) (k0_pay16 (View.ld x1 r0_0)) (View.ld x0 r0_22) (View.ld x0 r0_23) (View.ld x0 r0_24)) x
      = blockFn x0 (View.ld x1 r0_0) (View.ld x2 r0_1) (View.ld x3 r0_2) (View.ld x4 r0_3) (r0_25.emb x) :=
  (congrFun (piece1 (F := Ideal) x0 x1 x2 x3 x4) x).trans
    (chunk_block x0 (View.ld x1 r0_0) (View.ld x2 r0_1) (View.ld x3 r0_2) (View.ld x4 r0_3) 256 256 257 258 259 260 261 262 263 264 265 rfl rfl rfl rfl rfl rfl rfl rfl rfl rfl inb_S128x4096_S128x256_0_256 inb_S128x4224_S128x256_0_256 inb_S128x4224_S128x256_0_257 inb_S128x4224_S128x256_0_258 inb_S128x4224_S128x256_0_259 inb_S128x4224_S128x256_0_260 inb_S128x4224_S128x256_0_261 inb_S128x4224_S128x256_0_262 inb_S128x4224_S128x256_0_263 inb_S128x4224_S128x256_0_264 inb_S128x4224_S128x256_0_265 x)

/-- Chunk 0: the payload stored through the rectangle at column 0. -/
theorem piece0 (x0 : Vec F S128x4224 .f32) (x1 : Vec F S32x10 .f32) (x2 : Vec F S32 .f32) (x3 : Vec F S1x32 .f32) (x4 : Vec F S1 .f32) :
    k0_pay10 (View.ld x1 r0_0) (View.ld x2 r0_1) (k0_pay2 (View.ld x4 r0_3)) (k0_pay3 (View.ld x3 r0_2)) (k0_pay7 (View.ld x1 r0_0) (k0_pay4 (View.ld x1 r0_0) (View.ld x0 r0_4) (View.ld x0 r0_5) (View.ld x0 r0_6)) (k0_pay5 (View.ld x1 r0_0)) (k0_pay6 (View.ld x0 r0_7)) (View.ld x0 r0_8) (View.ld x0 r0_9) (View.ld x0 r0_10) (View.ld x0 r0_11)) (k0_pay8 (View.ld x1 r0_0)) (k0_pay9 (View.ld x0 r0_12)) (View.ld x0 r0_13)
      = chunk (View.ld x1 r0_0) (View.ld x2 r0_1) (k0_pay2 (View.ld x4 r0_3)) (k0_pay3 (View.ld x3 r0_2)) (View.ld x0 r0_4) (View.ld x0 r0_5) (View.ld x0 r0_6) (View.ld x0 r0_7) (View.ld x0 r0_8) (View.ld x0 r0_9) (View.ld x0 r0_10) (View.ld x0 r0_11) (View.ld x0 r0_12) (View.ld x0 r0_13) := rfl

/-- Chunk 0's store, entry by entry, is the block function along its rectangle. -/
theorem store0 (x0 : Vec Ideal S128x4224 .f32) (x1 : Vec Ideal S32x10 .f32) (x2 : Vec Ideal S32 .f32) (x3 : Vec Ideal S1x32 .f32) (x4 : Vec Ideal S1 .f32) (x : r0_14.shape.Idx) :
    (k0_pay10 (View.ld x1 r0_0) (View.ld x2 r0_1) (k0_pay2 (View.ld x4 r0_3)) (k0_pay3 (View.ld x3 r0_2)) (k0_pay7 (View.ld x1 r0_0) (k0_pay4 (View.ld x1 r0_0) (View.ld x0 r0_4) (View.ld x0 r0_5) (View.ld x0 r0_6)) (k0_pay5 (View.ld x1 r0_0)) (k0_pay6 (View.ld x0 r0_7)) (View.ld x0 r0_8) (View.ld x0 r0_9) (View.ld x0 r0_10) (View.ld x0 r0_11)) (k0_pay8 (View.ld x1 r0_0)) (k0_pay9 (View.ld x0 r0_12)) (View.ld x0 r0_13)) x
      = blockFn x0 (View.ld x1 r0_0) (View.ld x2 r0_1) (View.ld x3 r0_2) (View.ld x4 r0_3) (r0_14.emb x) :=
  (congrFun (piece0 (F := Ideal) x0 x1 x2 x3 x4) x).trans
    (chunk_block x0 (View.ld x1 r0_0) (View.ld x2 r0_1) (View.ld x3 r0_2) (View.ld x4 r0_3) 0 0 1 2 3 4 5 6 7 8 9 rfl rfl rfl rfl rfl rfl rfl rfl rfl rfl inb_S128x4096_S128x256_0_0 inb_S128x4224_S128x256_0_0 inb_S128x4224_S128x256_0_1 inb_S128x4224_S128x256_0_2 inb_S128x4224_S128x256_0_3 inb_S128x4224_S128x256_0_4 inb_S128x4224_S128x256_0_5 inb_S128x4224_S128x256_0_6 inb_S128x4224_S128x256_0_7 inb_S128x4224_S128x256_0_8 inb_S128x4224_S128x256_0_9 x)

end Cert.KernelIdeal.Chunk

end
-- ==== Proof.ArrayVal.lean ====
/-
  The array the kernel region leaves.  Each grid point t owns rows 128 t .. 128 t + 127: it fetches those rows of
  the padded 2048 x 4224 array and writes back a 128 x 4096 block, the estimate at every column of every one of its
  rows.  The sixteen row blocks tile the 2048 x 4096 output array, so after the region entry (r, j) of that array is the
  estimate of the window of row r of the padded array that starts at column j.
-/
import proofs.«150225_j51960514347079_1_alg».proof.Proof.ChunkCases
import Idealize.ShloMosaic.Lib.Pipeline.Value
import Idealize.ShloMosaic.Lib.ValueIdx
import Idealize.ShloMosaic.Lib.Tactic

noncomputable section

namespace Cert.KernelIdeal.ArrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Chunk

/-- The output block after the body: its sixteen stores are the sixteen column ranges of the block function. -/
theorem out0_5_eq (x0 : Vec Ideal S128x4224 .f32) (x1 : Vec Ideal S32x10 .f32) (x2 : Vec Ideal S32 .f32)
    (x3 : Vec Ideal S1x32 .f32) (x4 : Vec Ideal S1 .f32) :
    out0_5 (F := Ideal) x0 x1 x2 x3 x4 = blockFn x0 x1 x2 x3 x4 := by
  have hz2 : (![0, 0] : Fin 2 → ℕ) = fun _ => 0 := funext fun a => by fin_cases a <;> rfl
  have hz1 : (![0] : Fin 1 → ℕ) = fun _ => 0 := funext fun a => by fin_cases a; rfl
  have key : out0_5 (F := Ideal) x0 x1 x2 x3 x4
      = blockFn x0 (View.ld x1 r0_0) (View.ld x2 r0_1) (View.ld x3 r0_2) (View.ld x4 r0_3) := by
    funext y
    unfold out0_5
    refine View.canon_apply_of_pieces _ _ ?_ y (cover0_5 _ _ _ _ _ _ _ _ _ _ _ _ _ _ _ _ y)
    intro pc hpc x
    simp only [List.mem_cons, List.mem_nil_iff, or_false] at hpc
    rcases hpc with rfl | rfl | rfl | rfl | rfl | rfl | rfl | rfl | rfl | rfl | rfl | rfl | rfl | rfl | rfl | rfl
    · exact store15 x0 x1 x2 x3 x4 x
    · exact store14 x0 x1 x2 x3 x4 x
    · exact store13 x0 x1 x2 x3 x4 x
    · exact store12 x0 x1 x2 x3 x4 x
    · exact store11 x0 x1 x2 x3 x4 x
    · exact store10 x0 x1 x2 x3 x4 x
    · exact store9 x0 x1 x2 x3 x4 x
    · exact store8 x0 x1 x2 x3 x4 x
    · exact store7 x0 x1 x2 x3 x4 x
    · exact store6 x0 x1 x2 x3 x4 x
    · exact store5 x0 x1 x2 x3 x4 x
    · exact store4 x0 x1 x2 x3 x4 x
    · exact store3 x0 x1 x2 x3 x4 x
    · exact store2 x0 x1 x2 x3 x4 x
    · exact store1 x0 x1 x2 x3 x4 x
    · exact store0 x0 x1 x2 x3 x4 x
  rw [key, View.ld_unit_zero (S := S32x10) hz2, View.ld_unit_zero (S := S32) hz1, View.ld_unit_zero (S := S1x32) hz2,
    View.ld_unit_zero (S := S1) hz1]

/-- Entry `k` of the window of row `r` of the padded array that starts at column `j`. -/
def rowWin (xp : S2048x4224.Idx → EReal) (r : Fin 2048) (j : Fin 4096) (k : Fin 10) : EReal :=
  xp (ix2 r ⟨j.val + k.val, by omega⟩)

/-- The 2048 x 4096 array of estimates over the padded array: entry (r, j) reads the window of row r starting at j. -/
def arrFn (xp : S2048x4224.Idx → EReal) (W1 : S32x10.Idx → EReal) (b1 : S32.Idx → EReal) (W2 : S1x32.Idx → EReal)
    (b2 : S1.Idx → EReal) : S2048x4096.Idx → EReal :=
  fun i => Cert.SlidingMlp.est W1 b1 W2 b2 (rowWin xp (i 0) (i 1))

variable (m : (ℓ : Loc nD τ sig) → Buf (Elt Ideal) ℓ) (ρ : Dev nD → PrngReg)

/-- The printed index maps over the grid: the padded input and the output move down one row block per point and stay at
    column block 0; the weights and biases stay at block 0. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The first-layer weights' block at any point is the whole matrix. -/
theorem iblk1 (c : Dev nD) (t : Fin cfg0.N) : (iblk m c 1 t : Vec Ideal S32x10 .f32) = V m c main_arg1 := by
  funext y
  obtain ⟨-, -, -, -, e0, e1, -⟩ := idx_facts t
  show V m c main_arg1 (((cfg0.win 1).blk t).view.emb y) = V m c main_arg1 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 10 + 1 * (y 1).val = (y 1).val; omega

/-- The first-layer bias' block is the whole vector. -/
theorem iblk2 (c : Dev nD) (t : Fin cfg0.N) : (iblk m c 2 t : Vec Ideal S32 .f32) = V m c main_arg2 := by
  funext y
  obtain ⟨-, -, -, -, -, -, e0, -⟩ := idx_facts t
  show V m c main_arg2 (((cfg0.win 2).blk t).view.emb y) = V m c main_arg2 y
  refine congrArg _ (funext fun a => Fin.ext ?_)
  match a with
  | ⟨0, _⟩ => show win0_2.index t (0 : Fin 1) * 32 + 1 * (y 0).val = (y 0).val; omega

/-- The second-layer weights' block is the whole row matrix. -/
theorem iblk3 (c : Dev nD) (t : Fin cfg0.N) : (iblk m c 3 t : Vec Ideal S1x32 .f32) = V m c main_arg3 := by
  funext y
  obtain ⟨-, -, -, -, -, -, -, e0, e1, -⟩ := idx_facts t
  show V m c main_arg3 (((cfg0.win 3).blk t).view.emb y) = V m c main_arg3 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- The second-layer bias' block is the whole one-entry vector. -/
theorem iblk4 (c : Dev nD) (t : Fin cfg0.N) : (iblk m c 4 t : Vec Ideal S1 .f32) = V m c main_arg4 := by
  funext y
  obtain ⟨-, -, -, -, -, -, -, -, -, e0⟩ := idx_facts t
  show V m c main_arg4 (((cfg0.win 4).blk t).view.emb y) = V m c main_arg4 y
  refine congrArg _ (funext fun a => Fin.ext ?_)
  match a with
  | ⟨0, _⟩ => show win0_4.index t (0 : Fin 1) * 1 + 1 * (y 0).val = (y 0).val; omega

/-- What point `t` writes back is row block `t` of the array of estimates over the padded array. -/
theorem flushed_eq (c : Dev nD) (t : Fin cfg0.N) :
    (dats m 0 c).flushed 5 t = ((cfg0.win 5).blk t).view.read (Elt Ideal)
      (arrFn (V m c main_v0) (V m c main_arg1) (V m c main_arg2) (V m c main_arg3) (V m c main_arg4)) := by
  show (cfg0.win 5).cut (grid0.coords t) ((dats m 0 c).after 5 t) = _
  rw [after0_5, out0_5_eq, iblk1, iblk2, iblk3, iblk4]
  obtain ⟨e0, e1, e2, e3, -⟩ := idx_facts t
  funext j
  show blockFn (iblk m c 0 t) (V m c main_arg1) (V m c main_arg2) (V m c main_arg3) (V m c main_arg4) j
    = arrFn (V m c main_v0) (V m c main_arg1) (V m c main_arg2) (V m c main_arg3) (V m c main_arg4) (((cfg0.win 5).blk t).view.emb j)
  unfold blockFn arrFn
  refine congrArg (Cert.SlidingMlp.est _ _ _ _) (funext fun k => ?_)
  unfold slab rowWin
  show V m c main_v0 (((cfg0.win 0).blk t).view.emb _) = V m c main_v0 _
  refine congrArg _ (funext fun a => Fin.ext ?_)
  match a with
  | ⟨0, _⟩ => show win0_0.index t (0 : Fin 2) * 128 + 1 * (j 0).val = win0_5.index t (0 : Fin 2) * 128 + 1 * (j 0).val; omega
  | ⟨1, _⟩ => show win0_0.index t (1 : Fin 2) * 4224 + 1 * ((j 1).val + k.val) = win0_5.index t (1 : Fin 2) * 4096 + 1 * (j 1).val + k.val; omega

/-- An index of the output array is in point `t`'s block iff each coordinate is in the block's range on its axis. -/
theorem mem_blk (t : Fin cfg0.N) (i : S2048x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v1).slice (win0_5.rect t)).set ↔ _
  rw [View.set_slice_whole, Rect.mem_set_unit]
  exact Iff.rfl

/-- Every index of the output array lies in the block of the point that owns its row. -/
theorem cover (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  have hN : cfg0.N = 16 := N_0
  let t : Fin cfg0.N := ⟨(i 0).val / 128, by rw [hN]; omega⟩
  obtain ⟨-, -, e2, e3, -⟩ := idx_facts t
  have ht : t.val = (i 0).val / 128 := rfl
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4096 ≤ (i 1).val ∧ (i 1).val < win0_5.index t (1 : Fin 2) * 4096 + 4096; omega

/-- The output array after the region: the array of estimates over the padded array. -/
theorem final (c : Dev nD) : (dats m 0 c).arrAt 5 cfg0.N
    = arrFn (V m c main_v0) (V m c main_arg1) (V m c main_arg2) (V m c main_arg3) (V m c main_arg4) :=
  (dats m 0 c).arrAt_eq_of_cover 5 _ (fun t _ => flushed_eq m c t) (cover)

end Cert.KernelIdeal.ArrVal

end
-- ==== Proof.KernelRun.lean ====
/-
  The kernel's run, read.  Before the region the host pads every row with 128 zeros on the right; the windows kept at
  the end start at columns 0 .. 4085 and end by column 4094, inside the unpadded row, so the padding is never read
  by a kept entry.  After the region the host keeps columns 0 .. 4085 of the region's array — the 2048 x 4086 array
  of estimates — and puts ten copies of its first column in front of it.
-/
import proofs.«150225_j51960514347079_1_alg».proof.Proof.ArrayVal
import Idealize.ShloMosaic.Lib.KernelVsHost
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.RunVal

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Chunk Cert.KernelIdeal.ArrVal

variable (m : (ℓ : Loc nD τ sig) → Buf (Elt Ideal) ℓ) (ρ : Dev nD → PrngReg)

/-- The host operations after the region as one function of the array of estimates: its first column, repeated ten
    times, in front of it. -/
def tail (h : (⟨S2048x4086, .f32⟩ : BufTy).Contents (Elt Ideal)) : (⟨S2048x4096, .f32⟩ : BufTy).Contents (Elt Ideal) :=
  concatenate S2048x4096 1
    [⟨S2048x10, broadcastInDim S2048x10 ![0, 1] bcast_S2048x1_S2048x10_0_1
        (extractStridedSlice S2048x1 ![0, 0] h slices_S2048x4086_S2048x1_0_0)⟩, ⟨S2048x4086, h⟩]
    concatenates_S2048x10_S2048x4086_S2048x4096_d1

/-- The array the region reads is the argument padded with zeros on the right. -/
theorem V_main_v0 (c : Dev nD) : (V m c main_v0 : S2048x4224.Idx → EReal)
    = pad S2048x4224 ![0, 0] ![0, 128] ![0, 0] (m ((c : Thread nD τ).loc main_arg0))
        (sitofp (F := Ideal) .f32 (constantI S_ 32 0#32)) pads_S2048x4096_S2048x4224_000_01280 h_S_ := by
  dsimp only [Gen.V, Gen.V0]
  simp only [Gen.hostOps0, Gen.hostOps0_1, List.flatten_cons, List.flatten_nil, List.append_nil, List.cons_append,
    List.nil_append]
  after_results
  rfl

/-- Inside the unpadded columns the padded array is the argument. -/
theorem V_main_v0_apply (c : Dev nD) (r : Fin 2048) (j : Fin 4096) :
    V m c main_v0 (ix2 r ⟨j.val, by omega⟩) = m ((c : Thread nD τ).loc main_arg0) (ix2 r j) := by
  rw [V_main_v0]
  exact pad_apply_of_inside _ _ _ _ _ _ _ _ (ix2 r j) fun a => match a with
    | ⟨0, _⟩ => by show r.val = 0 + r.val * (0 + 1); omega
    | ⟨1, _⟩ => by show j.val = 0 + j.val * (0 + 1); omega

/-- Columns 0 .. 4085 of the array of estimates over the padded array are the estimates over the argument. -/
theorem slice_eq (c : Dev nD) (W1 : S32x10.Idx → EReal) (b1 : S32.Idx → EReal) (W2 : S1x32.Idx → EReal) (b2 : S1.Idx → EReal) :
    extractStridedSlice S2048x4086 ![0, 0] (arrFn (V m c main_v0) W1 b1 W2 b2) slices_S2048x4096_S2048x4086_0_0
      = Cert.SlidingMlp.hurst (m ((c : Thread nD τ).loc main_arg0)) W1 b1 W2 b2 := by
  funext i
  obtain ⟨r, t, rfl⟩ : ∃ (r : Fin 2048) (t : Fin 4086), i = ix2 r t := ⟨i 0, i 1, eq_ix2 i⟩
  rw [extractStridedSlice_apply ![0, 0] _ slices_S2048x4096_S2048x4086_0_0 (ix2 r t) (ix2 r ⟨t.val, by omega⟩)
    (fun a => match a with
      | ⟨0, _⟩ => by show r.val = 0 + r.val; omega
      | ⟨1, _⟩ => by show t.val = 0 + t.val; omega)]
  unfold arrFn Cert.SlidingMlp.hurst
  refine congrArg (Cert.SlidingMlp.est W1 b1 W2 b2) (funext fun k => ?_)
  unfold rowWin Cert.SlidingMlp.winAt
  exact V_main_v0_apply m c r ⟨t.val + k.val, by omega⟩

/-- What @main returns: the tail of the first 4086 columns of the region's array. -/
theorem result_eq (c : Dev nD) : Pipeline.afterTail₀ cfgs (dats m) 0 (V0 m) [hostOps1] c main_v5
    = tail (extractStridedSlice S2048x4086 ![0, 0] ((dats m 0 c).arrAt 5 cfg0.N) slices_S2048x4096_S2048x4086_0_0) := by
  unfold Pipeline.afterTail₀
  show StableHlo.after hostOps1 _ (Proc.devRef .tc main_v5) = _
  after_results
  rw [Pipeline.withArrays_arr spec0 launch0.win.arr_inj c _ _ 5]
  rfl

/-- The kernel's run with its result named: the tail of the estimates over the argument arrays, which end unchanged. -/
theorem run : θ_run defs (onTc (τ := τ) (main (F := Ideal))) ⟨m, fun _ => 0, ρ⟩ fun r => ∀ c : Dev nD,
      r.2.mem ((c.tc : Thread nD τ).loc main_v5)
        = tail (Cert.SlidingMlp.hurst (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hr := Gen.run_main (F := Ideal) m ρ
  refine ((θ_run defs _ _).mono ?_ hr)
  intro r h c
  refine ⟨?_, ?_⟩
  · rw [(h c).2 main_v5 (Pipeline.mem_restRefs_of main_v5 (by decide) (by decide)), result_eq, final,
      V_main_arg1, V_main_arg2, V_main_arg3, V_main_arg4, slice_eq]
  · exact ⟨(((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩

end Cert.KernelIdeal.RunVal

end
-- ==== Proof.RefSide.lean ====
/-
  The reference program's result, read index by index, is the array of sliding-window estimates.
-/
import proofs.«150225_j51960514347079_1_alg».proof.Proof.Gen.ReferenceIdeal.Read
import proofs.«150225_j51960514347079_1_alg».proof.Proof.Spec
import Idealize.ShloMosaic.Lib.IdealHost
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

/-- The gather's dimension numbers: operand axis 0 kept whole (offset axis 0 of the result), operand axis 1 collapsed
    and addressed by the one-component start index held on axis 2 of the start indices. -/
abbrev gd : GatherDims S2048x4096 S4086x10x1 S2048x4086x10 :=
  gather_S2048x4096_S4086x10x1_S2048x4086x10_0_1_n_n_1_2_20481

/-- The start-indices index at which result index (b, t, k) reads its start index: (t, k, 0). -/
theorem gd_siIdx (j : S2048x4086x10.Idx) (c : Fin gd.startIndexMap.length) :
    gd.siIdx j c = ix3 (j 1) (j 2) (0 : Fin 1) := by
  funext b; refine Fin.ext ?_
  match b with
  | ⟨0, _⟩ => rfl
  | ⟨1, _⟩ => rfl
  | ⟨2, _⟩ =>
    have h : c.val < 1 := c.isLt
    show c.val = 0
    omega

/-- On operand axis 0 (kept whole, neither start-indexed nor batching) the operand index is the result's coordinate on
    its offset axis. -/
theorem gd_coord0 {w : Nat} (j : S2048x4086x10.Idx) (idx : IVec S4086x10x1 w) :
    gd.start j idx 0 + gd.batchCoord j 0 + gd.offCoord j 0 = (j 0).val := by
  rw [GatherDims.batchCoord_eq_zero _ _ _ List.not_mem_nil]
  unfold GatherDims.start
  rw [dif_neg (show ¬ (0 : Fin S2048x4096.rank) ∈ gd.startIndexMap by decide)]
  unfold GatherDims.offCoord
  rw [dif_pos (show (0 : Fin S2048x4096.rank) ∈ gd.sKept by decide), Nat.add_zero, Nat.zero_add]
  rfl

/-- On operand axis 1 (collapsed, start-indexed) the operand index is the clamped start index. -/
theorem gd_coord1 {w : Nat} (j : S2048x4086x10.Idx) (idx : IVec S4086x10x1 w) :
    gd.start j idx 1 + gd.batchCoord j 1 + gd.offCoord j 1
      = min (idx (ix3 (j 1) (j 2) (0 : Fin 1))).toInt.toNat 4095 := by
  rw [GatherDims.batchCoord_eq_zero _ _ _ List.not_mem_nil,
    GatherDims.offCoord_eq_zero _ _ _ (show ¬ (1 : Fin S2048x4096.rank) ∈ gd.sKept by decide)]
  unfold GatherDims.start
  rw [dif_pos (show (1 : Fin S2048x4096.rank) ∈ gd.startIndexMap by decide), gd_siIdx]
  rfl

/-- THE GATHER READ AT (b, t, k): row b of the operand at the column the start index (t, k, 0) names, read signed and
    clamped into [0, 4095]. -/
theorem gather_apply {α : Type} {w : Nat} (x : S2048x4096.Idx → α) (idx : IVec S4086x10x1 w) (j : S2048x4086x10.Idx) :
    Host.gather gd x idx j
      = x (ix2 (j 0) ⟨min (idx (ix3 (j 1) (j 2) (0 : Fin 1))).toInt.toNat 4095, by omega⟩) := by
  unfold Host.gather
  congr 1
  funext a; refine Fin.ext ?_
  show gd.start j idx a + gd.batchCoord j a + gd.offCoord j a = _
  match a with
  | ⟨0, _⟩ => exact gd_coord0 j idx
  | ⟨1, _⟩ => exact gd_coord1 j idx

/-! ## The start indices: the word t + k -/

section Words
variable {F : FTy → Type} [FloatOps F]

/-- The sum of the two broadcast iotas at (t, k) is the word t + k. -/
theorem val_main_v6_word (i : S4086x10.Idx) :
    Read.val_main_v6 (F := F) i = BitVec.ofNat 32 ((i 0).val + (i 1).val) := by
  rw [Read.val_main_v6_apply, Read.val_main_v4_apply, Read.val_main_v1_apply, Read.val_main_v0_apply,
    Read.val_main_v5_apply, Read.val_main_v3_apply, Read.val_main_v2_apply, BitVec.ofNat_add]
  rfl

/-- The word t + k is not negative, so the wrap-around select keeps it. -/
theorem val_main_v12_word (i : S4086x10x1.Idx) :
    Read.val_main_v12 (F := F) i = BitVec.ofNat 32 ((i 0).val + (i 1).val) := by
  have h0 : (i 0).val < 4086 := (i 0).isLt
  have h1 : (i 1).val < 10 := (i 1).isLt
  have h6 : Read.val_main_v6 (F := F) (Read.idx_main_v12 i) = BitVec.ofNat 32 ((i 0).val + (i 1).val) :=
    val_main_v6_word (F := F) (Read.idx_main_v12 i)
  have hc : IntOp.cmpi .slt (Read.val_main_v6 (F := F) (Read.idx_main_v12 i)) 0#32 = 0#1 := by
    refine eq_zero_of_ne_one fun h => ?_
    have hlt := (StableHlo.Predicate.slt_iff_toNat (by rw [h6, BitVec.toNat_ofNat]; omega) (by decide)).mp h
    exact absurd hlt (Nat.not_lt_zero _)
  rw [Read.val_main_v12_apply, Read.val_main_v11_apply, Read.val_main_v8_apply, Read.val_main_v7_apply,
    Read.val_main_c_apply, hc, select_zero, h6]

end Words

/-! ## The gathered windows -/

/-- Entry (r, t, k) of the gathered array is entry k of row r's window starting at column t. -/
theorem val_main_v13_at (x0 : (⟨S2048x4096, .f32⟩ : BufTy).Contents (Elt Ideal)) (r : Fin 2048) (t : Fin 4086) (k : Fin 10) :
    Read.val_main_v13 (F := Ideal) x0 (ix3 r t k) = x0 (ix2 r ⟨t.val + k.val, by omega⟩) := by
  unfold Read.val_main_v13
  rw [gather_apply]
  refine congrArg x0 (funext fun a => Fin.ext ?_)
  match a with
  | ⟨0, _⟩ => rfl
  | ⟨1, _⟩ =>
    show min (Read.val_main_v12 (F := Ideal) (ix3 t k (0 : Fin 1))).toInt.toNat 4095 = t.val + k.val
    rw [val_main_v12_word]
    show min (BitVec.ofNat 32 (t.val + k.val)).toInt.toNat 4095 = t.val + k.val
    rw [StableHlo.Predicate.toInt_ofNat_small _ (by omega)]
    omega

/-! ## The hidden layer -/

/-- Entry (r, t, h) of the rectified hidden layer: hidden unit h of the window of row r starting at column t. -/
theorem val_main_v18_at (x0 : (⟨S2048x4096, .f32⟩ : BufTy).Contents (Elt Ideal)) (x1 : (⟨S32x10, .f32⟩ : BufTy).Contents (Elt Ideal))
    (x2 : (⟨S32, .f32⟩ : BufTy).Contents (Elt Ideal)) (r : Fin 2048) (t : Fin 4086) (h : Fin 32) :
    Read.val_main_v18 (F := Ideal) x0 x1 x2 (ix3 r t h)
      = max ((∑ k : Fin 10, x0 (ix2 r ⟨t.val + k.val, by omega⟩) * x1 (ix2 h k)) + x2 (ix1 h))
          (Ideal.ofBits .f32 0x00000000#32) := by
  rw [Read.val_main_v18_apply, Read.val_main_v17_apply, Read.val_main_v14_apply, Read.val_main_v16_apply,
    Read.val_main_v15_apply, Read.val_main_call0_v0_apply, Read.val_main_call0_cst_apply]
  have el : ∀ k : Fin 10, Read.lidx_main_v14 (ix3 r t h) k = ix3 r t k := fun k => funext fun a => Fin.ext (by
    match a with
    | ⟨0, _⟩ => rfl
    | ⟨1, _⟩ => rfl
    | ⟨2, _⟩ => rfl)
  have er : ∀ k : Fin 10, Read.ridx_main_v14 (ix3 r t h) k = ix2 h k := fun k => funext fun a => Fin.ext (by
    match a with
    | ⟨0, _⟩ => rfl
    | ⟨1, _⟩ => rfl)
  have eb : Read.idx_main_v15 (Read.idx_main_v16 (ix3 r t h)) = ix1 h := funext fun a => Fin.ext (by
    match a with
    | ⟨0, _⟩ => rfl)
  simp only [el, er, eb, val_main_v13_at, Ideal.maximumf_def, Ideal.addf_def, Ideal.ofBits_def]

/-! ## The read-out -/

/-- Entry (r, t, 0) of the read-out: the affine image of the hidden layer of the window of row r starting at column t. -/
theorem val_main_v22_at (x0 : (⟨S2048x4096, .f32⟩ : BufTy).Contents (Elt Ideal)) (x1 : (⟨S32x10, .f32⟩ : BufTy).Contents (Elt Ideal))
    (x2 : (⟨S32, .f32⟩ : BufTy).Contents (Elt Ideal)) (x3 : (⟨S1x32, .f32⟩ : BufTy).Contents (Elt Ideal))
    (x4 : (⟨S1, .f32⟩ : BufTy).Contents (Elt Ideal)) (r : Fin 2048) (t : Fin 4086) :
    Read.val_main_v22 (F := Ideal) x0 x1 x2 x3 x4 (ix3 r t (0 : Fin 1))
      = (∑ h : Fin 32, max ((∑ k : Fin 10, x0 (ix2 r ⟨t.val + k.val, by omega⟩) * x1 (ix2 h k)) + x2 (ix1 h))
            (Ideal.ofBits .f32 0x00000000#32) * x3 (ix2 0 h)) + x4 (ix1 0) := by
  rw [Read.val_main_v22_apply, Read.val_main_v19_apply, Read.val_main_v21_apply, Read.val_main_v20_apply]
  have el : ∀ h : Fin 32, Read.lidx_main_v19 (ix3 r t (0 : Fin 1)) h = ix3 r t h := fun h => funext fun a => Fin.ext (by
    match a with
    | ⟨0, _⟩ => rfl
    | ⟨1, _⟩ => rfl
    | ⟨2, _⟩ => rfl)
  have er : ∀ h : Fin 32, Read.ridx_main_v19 (ix3 r t (0 : Fin 1)) h = ix2 (0 : Fin 1) h := fun h => funext fun a => Fin.ext (by
    match a with
    | ⟨0, _⟩ => rfl
    | ⟨1, _⟩ => rfl)
  have eb : Read.idx_main_v20 (Read.idx_main_v21 (ix3 r t (0 : Fin 1))) = ix1 (0 : Fin 1) := funext fun a => Fin.ext (by
    match a with
    | ⟨0, _⟩ => rfl)
  simp only [el, er, eb, val_main_v18_at, Ideal.addf_def]

/-! ## The result -/

/-- The reference's result is the array of sliding-window estimates. -/
theorem val_main_v31_eq_hurst
    (x0 : (⟨S2048x4096, .f32⟩ : BufTy).Contents (Elt Ideal)) (x1 : (⟨S32x10, .f32⟩ : BufTy).Contents (Elt Ideal))
    (x2 : (⟨S32, .f32⟩ : BufTy).Contents (Elt Ideal)) (x3 : (⟨S1x32, .f32⟩ : BufTy).Contents (Elt Ideal))
    (x4 : (⟨S1, .f32⟩ : BufTy).Contents (Elt Ideal)) :
    Cert.ReferenceIdeal.Read.val_main_v31 (F := Ideal) x0 x1 x2 x3 x4 = Cert.SlidingMlp.hurst x0 x1 x2 x3 x4 := by
  funext i
  obtain ⟨r, t, rfl⟩ : ∃ (r : Fin 2048) (t : Fin 4086), i = ix2 r t := ⟨i 0, i 1, eq_ix2 i⟩
  have e29 : Read.idx_main_v29 (ix2 r t) = ix3 r t (0 : Fin 1) := funext fun a => Fin.ext (by
    have hr : r.val < 2048 := r.isLt
    have ht : t.val < 4086 := t.isLt
    match a with
    | ⟨0, _⟩ => show (r.val * 4086 + t.val) / 4086 = r.val; omega
    | ⟨1, _⟩ => show (r.val * 4086 + t.val) / 1 % 4086 = t.val; omega
    | ⟨2, _⟩ => rfl)
  rw [Read.val_main_v31_apply, Read.val_main_v30_apply, Read.val_main_cst_2_apply, Read.val_main_v29_apply, e29,
    Read.val_main_v28_apply, Read.val_main_v27_apply, Read.val_main_cst_1_apply, Read.val_main_v26_apply,
    Read.val_main_v25_apply, Read.val_main_cst_apply, Read.val_main_v24_apply, Read.val_main_v23_apply,
    val_main_v22_at]
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefValue

end
-- ==== Proof.lean ====
/-
  A sliding-window perceptron, computed two ways.

  For every row r of a 2048 x 4096 array and every start column t = 0 .. 4085, the ten entries at columns t .. t + 9 are
  sent through 32 rectified affine hidden units and one affine read-out, and the estimate is half the logistic of the
  read-out; the result array has ten copies of the estimate at t = 0 in front of the 4086 estimates of the row.

  The reference gathers all windows at once and uses two matrix products; the kernel pads the rows with zeros, lets each of
  sixteen grid points take 128 rows, and within a point walks the columns in sixteen chunks of 256, adding up ten shifted
  slabs times the ten weight columns.  Over the extended reals both are the same sums in the same order (the kernel's
  accumulator merely starts from zero), the logistic of the kernel is the reference's 1 / (1 + exp (-z)), and no kept
  window reaches the zero padding: the windows that do are cut off by the slice the host takes after the region.  No law
  that needs finiteness is used, so the precondition is never opened.

  The word-level kernel needs only its generated frame; nothing was rewritten by the idealization, so `preserves` is trivial.
-/
import proofs.«150225_j51960514347079_1_alg».proof.Defs
import proofs.«150225_j51960514347079_1_alg».proof.Proof.Gen.Kernel
import proofs.«150225_j51960514347079_1_alg».proof.Proof.Gen.Kernel.Skeleton
import proofs.«150225_j51960514347079_1_alg».proof.Proof.Gen.Kernel.Launch
import proofs.«150225_j51960514347079_1_alg».proof.Proof.Gen.Kernel.Points
import proofs.«150225_j51960514347079_1_alg».proof.Proof.Gen.Kernel.Frame
import proofs.«150225_j51960514347079_1_alg».proof.Proof.Gen.KernelIdeal
import proofs.«150225_j51960514347079_1_alg».proof.Proof.Gen.KernelIdeal.Skeleton
import proofs.«150225_j51960514347079_1_alg».proof.Proof.Gen.KernelIdeal.Launch
import proofs.«150225_j51960514347079_1_alg».proof.Proof.Gen.KernelIdeal.Points
import proofs.«150225_j51960514347079_1_alg».proof.Proof.Gen.KernelIdeal.Frame
import proofs.«150225_j51960514347079_1_alg».proof.Proof.Gen.ReferenceIdeal
import proofs.«150225_j51960514347079_1_alg».proof.Proof.Gen.Pre_finite_inputs
import proofs.«150225_j51960514347079_1_alg».proof.Proof.Gen.ReferenceIdeal.Run
import proofs.«150225_j51960514347079_1_alg».proof.Proof.Gen.ReferenceIdeal.Read
import proofs.«150225_j51960514347079_1_alg».proof.Proof.KernelRun
import proofs.«150225_j51960514347079_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference ends with the same three operations as the kernel's host tail: the first column of the array of
    estimates, repeated ten times, in front of the array. -/
theorem ref_tail (x0 : (⟨Cert.ReferenceIdeal.S2048x4096, .f32⟩ : BufTy).Contents (Elt Ideal))
    (x1 : (⟨Cert.ReferenceIdeal.S32x10, .f32⟩ : BufTy).Contents (Elt Ideal))
    (x2 : (⟨Cert.ReferenceIdeal.S32, .f32⟩ : BufTy).Contents (Elt Ideal))
    (x3 : (⟨Cert.ReferenceIdeal.S1x32, .f32⟩ : BufTy).Contents (Elt Ideal))
    (x4 : (⟨Cert.ReferenceIdeal.S1, .f32⟩ : BufTy).Contents (Elt Ideal)) :
    Cert.ReferenceIdeal.Read.val_main_v34 (F := Ideal) x0 x1 x2 x3 x4
      = Cert.KernelIdeal.RunVal.tail (Cert.ReferenceIdeal.Read.val_main_v31 (F := Ideal) x0 x1 x2 x3 x4) := rfl

/-- Both programs end at the tail of the array of estimates of arguments that agree. -/
theorem algebraic : Cert.algebraic_KernelIdeal_ReferenceIdeal := by
  intro m ρ m' ρ' _ hagree
  refine ⟨_, Cert.KernelIdeal.RunVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, ref_tail, Cert.ReferenceIdeal.RefValue.val_main_v31_eq_hurst,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
